-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S512x513 : Shape := ⟨2, ![512, 513]⟩
abbrev S512x512 : Shape := ⟨2, ![512, 512]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S512x513 : S_.BroadcastsInDim S512x513 (![] : Fin 0 → Fin S512x513.rank)
  reducesTo_S512x513_S_d0_1 : S512x513.ReducesTo [0, 1] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512x513 .f32) (main_arg12 : FVec F S512x513 .f32) (main_arg13 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x513 .f32 := Host.absf main_arg11
  let main_cst_20 : FVec F S_ .f32 := constant S_ .f32 0x7F800000#32
  let main_v55 : FVec F S512x513 .f32 := broadcastInDim S512x513 ![] bcast_S_S512x513 main_cst_20
  let main_v56 : IVec S512x513 1 := cmpf .olt main_v54 main_v55
  let main_c_21 : IVec S_ 1 := constantI S_ 1 1#1
  let main_v57 : IVec S_ 1 := (fun x v => Host.reduce IntOp.andi x v reducesTo_S512x513_S_d0_1 h_S_) main_v56 main_c_21
  let main_v58 : IVec S_ 1 := andi main_v53 main_v57
  let main_v59 : FVec F S512x513 .f32 := Host.absf main_arg12
  let main_cst_22 : FVec F S_ .f32 := constant S_ .f32 0x7F800000#32
  let main_v60 : FVec F S512x513 .f32 := broadcastInDim S512x513 ![] bcast_S_S512x513 main_cst_22
  let main_v61 : IVec S512x513 1 := cmpf .olt main_v59 main_v60
  let main_c_23 : IVec S_ 1 := constantI S_ 1 1#1
  let main_v62 : IVec S_ 1 := (fun x v => Host.reduce IntOp.andi x v reducesTo_S512x513_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_v63 main_v67

def fn_part2 {F : FTy → Type} [FloatOps F] (main_arg7 : FVec F S512x513 .f32) (main_arg8 : FVec F S512x513 .f32) (main_arg9 : FVec F S512x513 .f32) (main_arg10 : FVec F S512x512 .f32) (main_arg11 : FVec F S512x513 .f32) (main_arg12 : FVec F S512x513 .f32) (main_arg13 : FVec F S512x512 .f32) (main_v33 : IVec S_ 1) : IVec S_ 1 :=
  let main_v34 : FVec F S512x513 .f32 := Host.absf main_arg7
  let main_cst_12 : FVec F S_ .f32 := constant S_ .f32 0x7F800000#32
  let main_v35 : FVec F S512x513 .f32 := broadcastInDim S512x513 ![] bcast_S_S512x513 main_cst_12
  let main_v36 : IVec S512x513 1 := cmpf .olt main_v34 main_v35
  let main_c_13 : IVec S_ 1 := constantI S_ 1 1#1
  let main_v37 : IVec S_ 1 := (fun x v => Host.reduce IntOp.andi x v reducesTo_S512x513_S_d0_1 h_S_) main_v36 main_c_13
  let main_v38 : IVec S_ 1 := andi main_v33 main_v37
  let main_v39 : FVec F S512x513 .f32 := Host.absf main_arg8
  let main_cst_14 : FVec F S_ .f32 := constant S_ .f32 0x7F800000#32
  let main_v40 : FVec F S512x513 .f32 := broadcastInDim S512x513 ![] bcast_S_S512x513 main_cst_14
  let main_v41 : IVec S512x513 1 := cmpf .olt main_v39 main_v40
  let main_c_15 : IVec S_ 1 := constantI S_ 1 1#1
  let main_v42 : IVec S_ 1 := (fun x v => Host.reduce IntOp.andi x v reducesTo_S512x513_S_d0_1 h_S_) main_v41 main_c_15
  let main_v43 : IVec S_ 1 := andi main_v38 main_v42
  let main_v44 : FVec F S512x513 .f32 := Host.absf main_arg9
  let main_cst_16 : FVec F S_ .f32 := constant S_ .f32 0x7F800000#32
  let main_v45 : FVec F S512x513 .f32 := broadcastInDim S512x513 ![] bcast_S_S512x513 main_cst_16
  let main_v46 : IVec S512x513 1 := cmpf .olt main_v44 main_v45
  let main_c_17 : IVec S_ 1 := constantI S_ 1 1#1
  let main_v47 : IVec S_ 1 := (fun x v => Host.reduce IntOp.andi x v reducesTo_S512x513_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x513 .f32) (main_arg5 : FVec F S512x512 .f32) (main_arg6 : FVec F S512x513 .f32) (main_arg7 : FVec F S512x513 .f32) (main_arg8 : FVec F S512x513 .f32) (main_arg9 : FVec F S512x513 .f32) (main_arg10 : FVec F S512x512 .f32) (main_arg11 : FVec F S512x513 .f32) (main_arg12 : FVec F S512x513 .f32) (main_arg13 : FVec F S512x512 .f32) (main_v13 : IVec S_ 1) (main_v16 : IVec S512x513 1) : IVec S_ 1 :=
  let main_c_5 : IVec S_ 1 := constantI S_ 1 1#1
  let main_v17 : IVec S_ 1 := (fun x v => Host.reduce IntOp.andi x v reducesTo_S512x513_S_d0_1 h_S_) main_v16 main_c_5
  let main_v18 : IVec S_ 1 := andi main_v13 main_v17
  let main_v19 : FVec F S512x513 .f32 := Host.absf main_arg4
  let main_cst_6 : FVec F S_ .f32 := constant S_ .f32 0x7F800000#32
  let main_v20 : FVec F S512x513 .f32 := broadcastInDim S512x513 ![] bcast_S_S512x513 main_cst_6
  let main_v21 : IVec S512x513 1 := cmpf .olt main_v19 main_v20
  let main_c_7 : IVec S_ 1 := constantI S_ 1 1#1
  let main_v22 : IVec S_ 1 := (fun x v => Host.reduce IntOp.andi x v reducesTo_S512x513_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x513 .f32 := Host.absf main_arg6
  let main_cst_10 : FVec F S_ .f32 := constant S_ .f32 0x7F800000#32
  let main_v30 : FVec F S512x513 .f32 := broadcastInDim S512x513 ![] bcast_S_S512x513 main_cst_10
  let main_v31 : IVec S512x513 1 := cmpf .olt main_v29 main_v30
  let main_c_11 : IVec S_ 1 := constantI S_ 1 1#1
  let main_v32 : IVec S_ 1 := (fun x v => Host.reduce IntOp.andi x v reducesTo_S512x513_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S512x32768 .f32) (main_arg1 : FVec F S512x32768 .f32) (main_arg2 : FVec F S512x32768 .f32) (main_arg3 : FVec F S512x513 .f32) (main_arg4 : FVec F S512x513 .f32) (main_arg5 : FVec F S512x512 .f32) (main_arg6 : FVec F S512x513 .f32) (main_arg7 : FVec F S512x513 .f32) (main_arg8 : FVec F S512x513 .f32) (main_arg9 : FVec F S512x513 .f32) (main_arg10 : FVec F S512x512 .f32) (main_arg11 : FVec F S512x513 .f32) (main_arg12 : FVec F S512x513 .f32) (main_arg13 : FVec F S512x512 .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S512x32768 .f32 := Host.absf main_arg1
  let main_cst_0 : FVec F S_ .f32 := constant S_ .f32 0x7F800000#32
  let main_v5 : FVec F S512x32768 .f32 := broadcastInDim S512x32768 ![] bcast_S_S512x32768 main_cst_0
  let main_v6 : IVec S512x32768 1 := cmpf .olt main_v4 main_v5
  let main_c_1 : IVec S_ 1 := constantI S_ 1 1#1
  let main_v7 : IVec S_ 1 := (fun x v => Host.reduce IntOp.andi x v reducesTo_S512x32768_S_d0_1 h_S_) main_v6 main_c_1
  let main_v8 : IVec S_ 1 := andi main_v3 main_v7
  let main_v9 : FVec F S512x32768 .f32 := Host.absf main_arg2
  let main_cst_2 : FVec F S_ .f32 := constant S_ .f32 0x7F800000#32
  let main_v10 : FVec F S512x32768 .f32 := broadcastInDim S512x32768 ![] bcast_S_S512x32768 main_cst_2
  let main_v11 : IVec S512x32768 1 := cmpf .olt main_v9 main_v10
  let main_c_3 : IVec S_ 1 := constantI S_ 1 1#1
  let main_v12 : IVec S_ 1 := (fun x v => Host.reduce IntOp.andi x v reducesTo_S512x32768_S_d0_1 h_S_) main_v11 main_c_3
  let main_v13 : IVec S_ 1 := andi main_v8 main_v12
  let main_v14 : FVec F S512x513 .f32 := Host.absf main_arg3
  let main_cst_4 : FVec F S_ .f32 := constant S_ .f32 0x7F800000#32
  let main_v15 : FVec F S512x513 .f32 := broadcastInDim S512x513 ![] bcast_S_S512x513 main_cst_4
  let main_v16 : IVec S512x513 1 := cmpf .olt main_v14 main_v15
  fn_part1 (F := F) main_arg4 main_arg5 main_arg6 main_arg7 main_arg8 main_arg9 main_arg10 main_arg11 main_arg12 main_arg13 main_v13 main_v16
-- ==== Kernel.lean ====
abbrev S512x32768 : Shape := ⟨2, ![512, 32768]⟩
abbrev S512x513 : Shape := ⟨2, ![512, 513]⟩
abbrev S512x512 : Shape := ⟨2, ![512, 512]⟩
abbrev S512x1 : Shape := ⟨2, ![512, 1]⟩
abbrev S512x1024 : Shape := ⟨2, ![512, 1024]⟩

abbrev nBuf : Space → Nat
  | .hbm => 47
  | .vmem => 25
  | .smem => 0
  | _ => 0

abbrev bufTy : (tb : Table) → Fin (tcTables nBuf tb) → BufTy
  | .hbm, ⟨0, _⟩ => ⟨S512x32768, .f32⟩
  | .hbm, ⟨1, _⟩ => ⟨S512x32768, .f32⟩
  | .hbm, ⟨2, _⟩ => ⟨S512x32768, .f32⟩
  | .hbm, ⟨3, _⟩ => ⟨S512x513, .f32⟩
  | .hbm, ⟨4, _⟩ => ⟨S512x513, .f32⟩
  | .hbm, ⟨5, _⟩ => ⟨S512x512, .f32⟩
  | .hbm, ⟨6, _⟩ => ⟨S512x513, .f32⟩
  | .hbm, ⟨7, _⟩ => ⟨S512x513, .f32⟩
  | .hbm, ⟨8, _⟩ => ⟨S512x513, .f32⟩
  | .hbm, ⟨9, _⟩ => ⟨S512x513, .f32⟩
  | .hbm, ⟨10, _⟩ => ⟨S512x512, .f32⟩
  | .hbm, ⟨11, _⟩ => ⟨S512x513, .f32⟩
  | .hbm, ⟨12, _⟩ => ⟨S512x513, .f32⟩
  | .hbm, ⟨13, _⟩ => ⟨S512x512, .f32⟩
  | .hbm, ⟨14, _⟩ => ⟨S512x512, .f32⟩
  | .hbm, ⟨15, _⟩ => ⟨S512x1, .f32⟩
  | .hbm, ⟨16, _⟩ => ⟨S512x512, .f32⟩
  | .hbm, ⟨17, _⟩ => ⟨S512x1, .f32⟩
  | .hbm, ⟨18, _⟩ => ⟨S512x1, .f32⟩
  | .hbm, ⟨19, _⟩ => ⟨S512x512, .f32⟩
  | .hbm, ⟨20, _⟩ => ⟨S512x1, .f32⟩
  | .hbm, ⟨21, _⟩ => ⟨S512x512, .f32⟩
  | .hbm, ⟨22, _⟩ => ⟨S512x1, .f32⟩
  | .hbm, ⟨23, _⟩ => ⟨S512x1, .f32⟩
  | .hbm, ⟨24, _⟩ => ⟨S512x512, .f32⟩
  | .hbm, ⟨25, _⟩ => ⟨S512x1, .f32⟩
  | .hbm, ⟨26, _⟩ => ⟨S512x512, .f32⟩
  | .hbm, ⟨27, _⟩ => ⟨S512x1, .f32⟩
  | .hbm, ⟨28, _⟩ => ⟨S512x1, .f32⟩
  | .hbm, ⟨29, _⟩ => ⟨S512x512, .f32⟩
  | .hbm, ⟨30, _⟩ => ⟨S512x1, .f32⟩
  | .hbm, ⟨31, _⟩ => ⟨S512x512, .f32⟩
  | .hbm, ⟨32, _⟩ => ⟨S512x1, .f32⟩
  | .hbm, ⟨33, _⟩ => ⟨S512x1, .f32⟩
  | .hbm, ⟨34, _⟩ => ⟨S512x512, .bf16⟩
  | .hbm, ⟨35, _⟩ => ⟨S512x512, .bf16⟩
  | .hbm, ⟨36, _⟩ => ⟨S512x512, .bf16⟩
  | .hbm, ⟨37, _⟩ => ⟨S512x512, .bf16⟩
  | .hbm, ⟨38, _⟩ => ⟨S512x512, .bf16⟩
  | .hbm, ⟨39, _⟩ => ⟨S512x512, .bf16⟩
  | .hbm, ⟨40, _⟩ => ⟨S512x512, .bf16⟩
  | .hbm, ⟨41, _⟩ => ⟨S512x512, .bf16⟩
  | .hbm, ⟨42, _⟩ => ⟨S512x512, .bf16⟩
  | .hbm, ⟨43, _⟩ => ⟨S512x512, .bf16⟩
  | .hbm, ⟨44, _⟩ => ⟨S512x512, .bf16⟩
  | .hbm, ⟨45, _⟩ => ⟨S512x32768, .f32⟩
  | .hbm, ⟨46, _⟩ => ⟨S512x32768, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S512x512, .bf16⟩
  | .local _ .vmem, ⟨8, _⟩ => ⟨S512x1, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x1, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S512x513_S512x512_0_0 : S512x513.Slices ![0, 0] S512x512
  slices_S512x513_S512x1_0_512 : S512x513.Slices ![0, 512] S512x1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x32768.size a
  hwx0_0 : ∀ i : grid0.Coords, EltTy.bits .f32 = 32 ∨ (Rect.block (s := S512x32768) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x32768.size a
  hwx0_1 : ∀ i : grid0.Coords, EltTy.bits .f32 = 32 ∨ (Rect.block (s := S512x32768) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x32768.size a
  hwx0_2 : ∀ i : grid0.Coords, EltTy.bits .f32 = 32 ∨ (Rect.block (s := S512x32768) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S512x1.size a
  hwx0_13 : ∀ i : grid0.Coords, EltTy.bits .f32 = 32 ∨ (Rect.block (s := S512x1) S512x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .bf16 = 32 ∨ (Rect.block (s := S512x512) S512x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S512x1.size a
  hwx0_17 : ∀ i : grid0.Coords, EltTy.bits .f32 = 32 ∨ (Rect.block (s := S512x1) S512x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1024.size a ≤ S512x32768.size a
  hwx0_18 : ∀ i : grid0.Coords, EltTy.bits .f32 = 32 ∨ (Rect.block (s := S512x32768) S512x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x1024.size a ≤ S512x32768.size a
  hwx0_19 : ∀ i : grid0.Coords, EltTy.bits .f32 = 32 ∨ (Rect.block (s := S512x32768) S512x1024.size (cc0_transform_19 i) (hinb0_19 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S512x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v28) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v29) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v30) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v19) S512x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v31_0) S512x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v31_1) S512x1024.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S512x32768 : Shape := ⟨2, ![512, 32768]⟩
abbrev S512x513 : Shape := ⟨2, ![512, 513]⟩
abbrev S512x512 : Shape := ⟨2, ![512, 512]⟩
abbrev S_ : Shape := ⟨0, ![]⟩
abbrev S1x32768 : Shape := ⟨2, ![1, 32768]⟩
abbrev S513x32768 : Shape := ⟨2, ![513, 32768]⟩

abbrev nBuf : Space → Nat
  | .hbm => 65
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S512x32768, .f32⟩
  | .hbm, ⟨2, _⟩ => ⟨S512x32768, .f32⟩
  | .hbm, ⟨3, _⟩ => ⟨S512x513, .f32⟩
  | .hbm, ⟨4, _⟩ => ⟨S512x513, .f32⟩
  | .hbm, ⟨5, _⟩ => ⟨S512x512, .f32⟩
  | .hbm, ⟨6, _⟩ => ⟨S512x513, .f32⟩
  | .hbm, ⟨7, _⟩ => ⟨S512x513, .f32⟩
  | .hbm, ⟨8, _⟩ => ⟨S512x513, .f32⟩
  | .hbm, ⟨9, _⟩ => ⟨S512x513, .f32⟩
  | .hbm, ⟨10, _⟩ => ⟨S512x512, .f32⟩
  | .hbm, ⟨11, _⟩ => ⟨S512x513, .f32⟩
  | .hbm, ⟨12, _⟩ => ⟨S512x513, .f32⟩
  | .hbm, ⟨13, _⟩ => ⟨S512x512, .f32⟩
  | .hbm, ⟨14, _⟩ => ⟨S_, .f32⟩
  | .hbm, ⟨15, _⟩ => ⟨S1x32768, .f32⟩
  | .hbm, ⟨16, _⟩ => ⟨S513x32768, .f32⟩
  | .hbm, ⟨17, _⟩ => ⟨S513x32768, .f32⟩
  | .hbm, ⟨18, _⟩ => ⟨S512x32768, .f32⟩
  | .hbm, ⟨19, _⟩ => ⟨S512x32768, .f32⟩
  | .hbm, ⟨20, _⟩ => ⟨S512x32768, .f32⟩
  | .hbm, ⟨21, _⟩ => ⟨S512x32768, .f32⟩
  | .hbm, ⟨22, _⟩ => ⟨S512x32768, .f32⟩
  | .hbm, ⟨23, _⟩ => ⟨S512x32768, .f32⟩
  | .hbm, ⟨24, _⟩ => ⟨S512x32768, .f32⟩
  | .hbm, ⟨25, _⟩ => ⟨S512x32768, .f32⟩
  | .hbm, ⟨26, _⟩ => ⟨S512x32768, .f32⟩
  | .hbm, ⟨27, _⟩ => ⟨S512x32768, .f32⟩
  | .hbm, ⟨28, _⟩ => ⟨S512x32768, .f32⟩
  | .hbm, ⟨29, _⟩ => ⟨S_, .f32⟩
  | .hbm, ⟨30, _⟩ => ⟨S512x32768, .f32⟩
  | .hbm, ⟨31, _⟩ => ⟨S512x32768, .f32⟩
  | .hbm, ⟨32, _⟩ => ⟨S_, .f32⟩
  | .hbm, ⟨33, _⟩ => ⟨S512x32768, .f32⟩
  | .hbm, ⟨34, _⟩ => ⟨S512x32768, .f32⟩
  | .hbm, ⟨35, _⟩ => ⟨S512x32768, .f32⟩
  | .hbm, ⟨36, _⟩ => ⟨S512x32768, .f32⟩
  | .hbm, ⟨37, _⟩ => ⟨S512x32768, .f32⟩
  | .hbm, ⟨38, _⟩ => ⟨S512x32768, .f32⟩
  | .hbm, ⟨39, _⟩ => ⟨S512x32768, .f32⟩
  | .hbm, ⟨40, _⟩ => ⟨S512x32768, .f32⟩
  | .hbm, ⟨41, _⟩ => ⟨S512x32768, .f32⟩
  | .hbm, ⟨42, _⟩ => ⟨S_, .f32⟩
  | .hbm, ⟨43, _⟩ => ⟨S512x32768, .f32⟩
  | .hbm, ⟨44, _⟩ => ⟨S512x32768, .f32⟩
  | .hbm, ⟨45, _⟩ => ⟨S_, .f32⟩
  | .hbm, ⟨46, _⟩ => ⟨S512x32768, .f32⟩
  | .hbm, ⟨47, _⟩ => ⟨S512x32768, .f32⟩
  | .hbm, ⟨48, _⟩ => ⟨S512x32768, .f32⟩
  | .hbm, ⟨49, _⟩ => ⟨S512x32768, .f32⟩
  | .hbm, ⟨50, _⟩ => ⟨S512x32768, .f32⟩
  | .hbm, ⟨51, _⟩ => ⟨S512x32768, .f32⟩
  | .hbm, ⟨52, _⟩ => ⟨S512x32768, .f32⟩
  | .hbm, ⟨53, _⟩ => ⟨S512x32768, .f32⟩
  | .hbm, ⟨54, _⟩ => ⟨S512x32768, .f32⟩
  | .hbm, ⟨55, _⟩ => ⟨S_, .f32⟩
  | .hbm, ⟨56, _⟩ => ⟨S512x32768, .f32⟩
  | .hbm, ⟨57, _⟩ => ⟨S512x32768, .f32⟩
  | .hbm, ⟨58, _⟩ => ⟨S_, .f32⟩
  | .hbm, ⟨59, _⟩ => ⟨S512x32768, .f32⟩
  | .hbm, ⟨60, _⟩ => ⟨S512x32768, .f32⟩
  | .hbm, ⟨61, _⟩ => ⟨S512x32768, .f32⟩
  | .hbm, ⟨62, _⟩ => ⟨S512x32768, .f32⟩
  | .hbm, ⟨63, _⟩ => ⟨S512x32768, .f32⟩
  | .hbm, ⟨64, _⟩ => ⟨S512x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S1x32768 : S_.BroadcastsInDim S1x32768 (![] : Fin 0 → Fin S1x32768.rank)
  concatenates_S512x32768_S1x32768_S513x32768_d0 : Shape.Concatenates [S512x32768, S1x32768] S513x32768 0
  bcast_S_S512x32768 : S_.BroadcastsInDim S512x32768 (![] : Fin 0 → Fin S512x32768.rank)
  dot_S512x513_S513x32768_S512x32768_1_0_0_1_n_n_wf : DotDims.WF S512x513 S513x32768 S512x32768 [1] [0] [0] [1] [] []
  dot_S512x512_S512x32768_S512x32768_1_0_0_1_n_n_wf : DotDims.WF S512x512 S512x32768 S512x32768 [1] [0] [0] [1] [] []

variable [Facts₀]

def dot_S512x513_S513x32768_S512x32768_1_0_0_1_n_n : DotDims S512x513 S513x32768 S512x32768 where
  lhsContracting := [1]
  rhsContracting := [0]
  lhsNonContracting := [0]
  rhsNonContracting := [1]
  lhsBatch := []
  rhsBatch := []
  wf := dot_S512x513_S513x32768_S512x32768_1_0_0_1_n_n_wf
def dot_S512x512_S512x32768_S512x32768_1_0_0_1_n_n : DotDims S512x512 S512x32768 S512x32768 where
  lhsContracting := [1]
  rhsContracting := [0]
  lhsNonContracting := [0]
  rhsNonContracting := [1]
  lhsBatch := []
  rhsBatch := []
  wf := dot_S512x512_S512x32768_S512x32768_1_0_0_1_n_n_wf

class Facts : Prop extends Facts₀ where

variable [Facts]
-- ==== Proof.Blocks.lean ====
/-
  What each staged block holds, entry by entry.

  The grid has 32 points; point `t` works on batch columns `1024 t … 1024 t + 1023`. The input, the previous output and
  the previous memory are staged in blocks of 512 × 1024 whose block index is `(0, t)`, so entry `(k, q)` of such a block
  is entry `(k, 1024 t + q)` of the array; the two results are written back through blocks of the same kind. The fifteen
  weight and bias arrays are staged whole at every point (block index `(0, 0)`, the block as large as the array), so
  entry `(p, k)` of the block is entry `(p, k)` of the array. The block indices are decided once over the 32 points; a
  block's coordinate is always index × size + the coordinate inside the block.
-/
import proofs.«172792_j54262616818002_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The block indices, over the grid -/

theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = t.val :=
  (by decide +kernel : ∀ t : Fin grid0.N, _)
theorem idx19 : ∀ t : Fin cfg0.N, win0_19.index t (0 : Fin 2) = 0 ∧ win0_19.index t (1 : Fin 2) = t.val :=
  (by decide +kernel : ∀ t : Fin grid0.N, _)

/-! ## The moving blocks: entry `(k, q)` at point `t` is entry `(k, 1024 t + q)` of the array -/

/-- The input's block. -/
theorem blk0 (c : Dev nD) (t : Fin cfg0.N) (k : Fin 512) (q : Fin 1024) (b : Fin 32768) (hb : b.val = t.val * 1024 + q.val) :
    (iblk m c 0 t : Vec Ideal S512x1024 .f32) (ix2 k q) = (m ((c : Thread nD τ).loc main_arg0) : S512x32768.Idx → Elt Ideal .f32) (ix2 k b) := by
  obtain ⟨e0, e1⟩ := idx0 t
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 512 + 1 * k.val = k.val; omega
  | ⟨1, _⟩ => show win0_0.index t (1 : Fin 2) * 1024 + 1 * q.val = b.val; omega

/-- The previous output's block. -/
theorem blk1 (c : Dev nD) (t : Fin cfg0.N) (k : Fin 512) (q : Fin 1024) (b : Fin 32768) (hb : b.val = t.val * 1024 + q.val) :
    (iblk m c 1 t : Vec Ideal S512x1024 .f32) (ix2 k q) = (m ((c : Thread nD τ).loc main_arg1) : S512x32768.Idx → Elt Ideal .f32) (ix2 k b) := by
  obtain ⟨e0, e1⟩ := idx1 t
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 512 + 1 * k.val = k.val; omega
  | ⟨1, _⟩ => show win0_1.index t (1 : Fin 2) * 1024 + 1 * q.val = b.val; omega

/-- The previous memory's block. -/
theorem blk2 (c : Dev nD) (t : Fin cfg0.N) (k : Fin 512) (q : Fin 1024) (b : Fin 32768) (hb : b.val = t.val * 1024 + q.val) :
    (iblk m c 2 t : Vec Ideal S512x1024 .f32) (ix2 k q) = (m ((c : Thread nD τ).loc main_arg2) : S512x32768.Idx → Elt Ideal .f32) (ix2 k b) := by
  obtain ⟨e0, e1⟩ := idx2 t
  unfold iblk
  rw [View.read_apply]
  show V m c main_arg2 _ = m ((c : Thread nD τ).loc main_arg2) _
  rw [V_main_arg2]
  refine congrArg _ (funext fun a => Fin.ext ?_)
  match a with
  | ⟨0, _⟩ => show win0_2.index t (0 : Fin 2) * 512 + 1 * k.val = k.val; omega
  | ⟨1, _⟩ => show win0_2.index t (1 : Fin 2) * 1024 + 1 * q.val = b.val; omega

/-! ## The resident blocks: the whole array at every point -/

/-- The candidate's input weights. -/
theorem blk3 (c : Dev nD) (t : Fin cfg0.N) (p k : Fin 512) :
    (iblk m c 3 t : Vec Ideal S512x512 .bf16) (ix2 p k) = (V m c main_v20 : S512x512.Idx → Elt Ideal .bf16) (ix2 p k) := by
  obtain ⟨e0, e1⟩ := idx3 t
  unfold iblk
  rw [View.read_apply]
  show V m c main_v20 _ = V m c main_v20 _
  refine congrArg _ (funext fun a => Fin.ext ?_)
  match a with
  | ⟨0, _⟩ => show win0_3.index t (0 : Fin 2) * 512 + 1 * p.val = p.val; omega
  | ⟨1, _⟩ => show win0_3.index t (1 : Fin 2) * 512 + 1 * k.val = k.val; omega

/-- The candidate's recurrent weights. -/
theorem blk4 (c : Dev nD) (t : Fin cfg0.N) (p k : Fin 512) :
    (iblk m c 4 t : Vec Ideal S512x512 .bf16) (ix2 p k) = (V m c main_v21 : S512x512.Idx → Elt Ideal .bf16) (ix2 p k) := by
  obtain ⟨e0, e1⟩ := idx4 t
  unfold iblk
  rw [View.read_apply]
  show V m c main_v21 _ = V m c main_v21 _
  refine congrArg _ (funext fun a => Fin.ext ?_)
  match a with
  | ⟨0, _⟩ => show win0_4.index t (0 : Fin 2) * 512 + 1 * p.val = p.val; omega
  | ⟨1, _⟩ => show win0_4.index t (1 : Fin 2) * 512 + 1 * k.val = k.val; omega

/-- The candidate's bias column. -/
theorem blk5 (c : Dev nD) (t : Fin cfg0.N) (p : Fin 512) :
    (iblk m c 5 t : Vec Ideal S512x1 .f32) (ix2 p (0 : Fin 1)) = (V m c main_v4 : S512x1.Idx → Elt Ideal .f32) (ix2 p (0 : Fin 1)) := by
  obtain ⟨e0, e1⟩ := idx5 t
  unfold iblk
  rw [View.read_apply]
  show V m c main_v4 _ = V m c main_v4 _
  refine congrArg _ (funext fun a => Fin.ext ?_)
  match a with
  | ⟨0, _⟩ => show win0_5.index t (0 : Fin 2) * 512 + 1 * p.val = p.val; omega
  | ⟨1, _⟩ => show win0_5.index t (1 : Fin 2) * 1 + 1 * 0 = 0; omega

/-- The input gate's input weights. -/
theorem blk6 (c : Dev nD) (t : Fin cfg0.N) (p k : Fin 512) :
    (iblk m c 6 t : Vec Ideal S512x512 .bf16) (ix2 p k) = (V m c main_v22 : S512x512.Idx → Elt Ideal .bf16) (ix2 p k) := by
  obtain ⟨e0, e1⟩ := idx6 t
  unfold iblk
  rw [View.read_apply]
  show V m c main_v22 _ = V m c main_v22 _
  refine congrArg _ (funext fun a => Fin.ext ?_)
  match a with
  | ⟨0, _⟩ => show win0_6.index t (0 : Fin 2) * 512 + 1 * p.val = p.val; omega
  | ⟨1, _⟩ => show win0_6.index t (1 : Fin 2) * 512 + 1 * k.val = k.val; omega

/-- The input gate's recurrent weights. -/
theorem blk7 (c : Dev nD) (t : Fin cfg0.N) (p k : Fin 512) :
    (iblk m c 7 t : Vec Ideal S512x512 .bf16) (ix2 p k) = (V m c main_v23 : S512x512.Idx → Elt Ideal .bf16) (ix2 p k) := by
  obtain ⟨e0, e1⟩ := idx7 t
  unfold iblk
  rw [View.read_apply]
  show V m c main_v23 _ = V m c main_v23 _
  refine congrArg _ (funext fun a => Fin.ext ?_)
  match a with
  | ⟨0, _⟩ => show win0_7.index t (0 : Fin 2) * 512 + 1 * p.val = p.val; omega
  | ⟨1, _⟩ => show win0_7.index t (1 : Fin 2) * 512 + 1 * k.val = k.val; omega

/-- The input gate's memory weights. -/
theorem blk8 (c : Dev nD) (t : Fin cfg0.N) (p k : Fin 512) :
    (iblk m c 8 t : Vec Ideal S512x512 .bf16) (ix2 p k) = (V m c main_v24 : S512x512.Idx → Elt Ideal .bf16) (ix2 p k) := by
  obtain ⟨e0, e1⟩ := idx8 t
  unfold iblk
  rw [View.read_apply]
  show V m c main_v24 _ = V m c main_v24 _
  refine congrArg _ (funext fun a => Fin.ext ?_)
  match a with
  | ⟨0, _⟩ => show win0_8.index t (0 : Fin 2) * 512 + 1 * p.val = p.val; omega
  | ⟨1, _⟩ => show win0_8.index t (1 : Fin 2) * 512 + 1 * k.val = k.val; omega

/-- The input gate's bias column. -/
theorem blk9 (c : Dev nD) (t : Fin cfg0.N) (p : Fin 512) :
    (iblk m c 9 t : Vec Ideal S512x1 .f32) (ix2 p (0 : Fin 1)) = (V m c main_v9 : S512x1.Idx → Elt Ideal .f32) (ix2 p (0 : Fin 1)) := by
  obtain ⟨e0, e1⟩ := idx9 t
  unfold iblk
  rw [View.read_apply]
  show V m c main_v9 _ = V m c main_v9 _
  refine congrArg _ (funext fun a => Fin.ext ?_)
  match a with
  | ⟨0, _⟩ => show win0_9.index t (0 : Fin 2) * 512 + 1 * p.val = p.val; omega
  | ⟨1, _⟩ => show win0_9.index t (1 : Fin 2) * 1 + 1 * 0 = 0; omega

/-- The read gate's input weights. -/
theorem blk10 (c : Dev nD) (t : Fin cfg0.N) (p k : Fin 512) :
    (iblk m c 10 t : Vec Ideal S512x512 .bf16) (ix2 p k) = (V m c main_v25 : S512x512.Idx → Elt Ideal .bf16) (ix2 p k) := by
  obtain ⟨e0, e1⟩ := idx10 t
  unfold iblk
  rw [View.read_apply]
  show V m c main_v25 _ = V m c main_v25 _
  refine congrArg _ (funext fun a => Fin.ext ?_)
  match a with
  | ⟨0, _⟩ => show win0_10.index t (0 : Fin 2) * 512 + 1 * p.val = p.val; omega
  | ⟨1, _⟩ => show win0_10.index t (1 : Fin 2) * 512 + 1 * k.val = k.val; omega

/-- The read gate's recurrent weights. -/
theorem blk11 (c : Dev nD) (t : Fin cfg0.N) (p k : Fin 512) :
    (iblk m c 11 t : Vec Ideal S512x512 .bf16) (ix2 p k) = (V m c main_v26 : S512x512.Idx → Elt Ideal .bf16) (ix2 p k) := by
  obtain ⟨e0, e1⟩ := idx11 t
  unfold iblk
  rw [View.read_apply]
  show V m c main_v26 _ = V m c main_v26 _
  refine congrArg _ (funext fun a => Fin.ext ?_)
  match a with
  | ⟨0, _⟩ => show win0_11.index t (0 : Fin 2) * 512 + 1 * p.val = p.val; omega
  | ⟨1, _⟩ => show win0_11.index t (1 : Fin 2) * 512 + 1 * k.val = k.val; omega

/-- The read gate's memory weights. -/
theorem blk12 (c : Dev nD) (t : Fin cfg0.N) (p k : Fin 512) :
    (iblk m c 12 t : Vec Ideal S512x512 .bf16) (ix2 p k) = (V m c main_v27 : S512x512.Idx → Elt Ideal .bf16) (ix2 p k) := by
  obtain ⟨e0, e1⟩ := idx12 t
  unfold iblk
  rw [View.read_apply]
  show V m c main_v27 _ = V m c main_v27 _
  refine congrArg _ (funext fun a => Fin.ext ?_)
  match a with
  | ⟨0, _⟩ => show win0_12.index t (0 : Fin 2) * 512 + 1 * p.val = p.val; omega
  | ⟨1, _⟩ => show win0_12.index t (1 : Fin 2) * 512 + 1 * k.val = k.val; omega

/-- The read gate's bias column. -/
theorem blk13 (c : Dev nD) (t : Fin cfg0.N) (p : Fin 512) :
    (iblk m c 13 t : Vec Ideal S512x1 .f32) (ix2 p (0 : Fin 1)) = (V m c main_v14 : S512x1.Idx → Elt Ideal .f32) (ix2 p (0 : Fin 1)) := by
  obtain ⟨e0, e1⟩ := idx13 t
  unfold iblk
  rw [View.read_apply]
  show V m c main_v14 _ = V m c main_v14 _
  refine congrArg _ (funext fun a => Fin.ext ?_)
  match a with
  | ⟨0, _⟩ => show win0_13.index t (0 : Fin 2) * 512 + 1 * p.val = p.val; omega
  | ⟨1, _⟩ => show win0_13.index t (1 : Fin 2) * 1 + 1 * 0 = 0; omega

/-- The write gate's input weights. -/
theorem blk14 (c : Dev nD) (t : Fin cfg0.N) (p k : Fin 512) :
    (iblk m c 14 t : Vec Ideal S512x512 .bf16) (ix2 p k) = (V m c main_v28 : S512x512.Idx → Elt Ideal .bf16) (ix2 p k) := by
  obtain ⟨e0, e1⟩ := idx14 t
  unfold iblk
  rw [View.read_apply]
  show V m c main_v28 _ = V m c main_v28 _
  refine congrArg _ (funext fun a => Fin.ext ?_)
  match a with
  | ⟨0, _⟩ => show win0_14.index t (0 : Fin 2) * 512 + 1 * p.val = p.val; omega
  | ⟨1, _⟩ => show win0_14.index t (1 : Fin 2) * 512 + 1 * k.val = k.val; omega

/-- The write gate's recurrent weights. -/
theorem blk15 (c : Dev nD) (t : Fin cfg0.N) (p k : Fin 512) :
    (iblk m c 15 t : Vec Ideal S512x512 .bf16) (ix2 p k) = (V m c main_v29 : S512x512.Idx → Elt Ideal .bf16) (ix2 p k) := by
  obtain ⟨e0, e1⟩ := idx15 t
  unfold iblk
  rw [View.read_apply]
  show V m c main_v29 _ = V m c main_v29 _
  refine congrArg _ (funext fun a => Fin.ext ?_)
  match a with
  | ⟨0, _⟩ => show win0_15.index t (0 : Fin 2) * 512 + 1 * p.val = p.val; omega
  | ⟨1, _⟩ => show win0_15.index t (1 : Fin 2) * 512 + 1 * k.val = k.val; omega

/-- The write gate's memory weights. -/
theorem blk16 (c : Dev nD) (t : Fin cfg0.N) (p k : Fin 512) :
    (iblk m c 16 t : Vec Ideal S512x512 .bf16) (ix2 p k) = (V m c main_v30 : S512x512.Idx → Elt Ideal .bf16) (ix2 p k) := by
  obtain ⟨e0, e1⟩ := idx16 t
  unfold iblk
  rw [View.read_apply]
  show V m c main_v30 _ = V m c main_v30 _
  refine congrArg _ (funext fun a => Fin.ext ?_)
  match a with
  | ⟨0, _⟩ => show win0_16.index t (0 : Fin 2) * 512 + 1 * p.val = p.val; omega
  | ⟨1, _⟩ => show win0_16.index t (1 : Fin 2) * 512 + 1 * k.val = k.val; omega

/-- The write gate's bias column. -/
theorem blk17 (c : Dev nD) (t : Fin cfg0.N) (p : Fin 512) :
    (iblk m c 17 t : Vec Ideal S512x1 .f32) (ix2 p (0 : Fin 1)) = (V m c main_v19 : S512x1.Idx → Elt Ideal .f32) (ix2 p (0 : Fin 1)) := by
  obtain ⟨e0, e1⟩ := idx17 t
  unfold iblk
  rw [View.read_apply]
  show V m c main_v19 _ = V m c main_v19 _
  refine congrArg _ (funext fun a => Fin.ext ?_)
  match a with
  | ⟨0, _⟩ => show win0_17.index t (0 : Fin 2) * 512 + 1 * p.val = p.val; omega
  | ⟨1, _⟩ => show win0_17.index t (1 : Fin 2) * 1 + 1 * 0 = 0; omega

end Cert.KernelIdeal.Blocks

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Body.lean ====
/-
  The kernel body's arithmetic at one entry of a block, on the extended reals.

  One grid point holds 1024 batch columns. Its body multiplies each 512 × 512 weight block by the 512 × 1024 block of
  the input, of the previous output or of the previous memory, adds the products and a bias column spread along the
  rows, and applies tanh or the logistic function. Read at row `p`, column `q` of the block:

  • a matrix product into a zero accumulator is the sum over `k` of `w (p, k) * a (k, q)` (`mm_at`) — narrowing the
    operands to 16 bits is the identity on the extended reals, and a shape cast to the same shape is the identity;
  • the bias column broadcast along the rows is the column's entry of row `p` (`bias_at`);
  • so a pre-activation of two or three products and a bias is a sum of two or three such sums and one bias entry
    (`gate₂_at`, `gate₃_at`), and the four payloads are tanh, the logistic function, products and one sum of those
    (`cand_at`, `igate_at`, `mem_at`, `out_at`).
-/
import proofs.«172792_j54262616818002_1_alg».proof.Proof.Gen.KernelIdeal.Skeleton
import proofs.«172792_j54262616818002_1_alg».proof.Proof.LibKeepdims
import Idealize.ShloMosaic.PureOps.Ideal.Laws
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.TcCoe Idealize.ShloMosaic.ValueIdx

/-! ## The matrix product's operand indices -/

theorem lhs_row (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_col (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_row (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_col (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-! ## One product, one bias -/

/-- A weight block times an activation block into the zero accumulator, at row `p` and column `q`: the sum over the 512
    contracted positions. -/
theorem mm_at (w : FVec Ideal S512x512 .bf16) (a : FVec Ideal S512x1024 .bf16) (p : Fin 512) (q : Fin 1024) :
    matmul dot_S512x512_S512x1024_S512x1024_1_0_0_1_n_n none (shapeCast S512x512 w shapeCasts_S512x512_S512x512) a (constant S512x1024 .f32 0x00000000#32) (ix2 p q)
      = ∑ k : Fin 512, w (ix2 p k) * a (ix2 k q) := by
  rw [shapeCast_self]
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p q) ((ValueIdx.contrEquiv1 dot_S512x512_S512x1024_S512x1024_1_0_0_1_n_n 512 rfl rfl).symm k) = ix2 p k := funext fun a => Fin.ext (by
    match a with
    | ⟨0, _⟩ => exact lhs_row _ _
    | ⟨1, _⟩ => exact (lhs_col _ _).trans hk)
  have er : dot_S512x512_S512x1024_S512x1024_1_0_0_1_n_n.rhsIdx (ix2 p q) ((ValueIdx.contrEquiv1 dot_S512x512_S512x1024_S512x1024_1_0_0_1_n_n 512 rfl rfl).symm k) = ix2 k q := funext fun a => Fin.ext (by
    match a with
    | ⟨0, _⟩ => exact (rhs_row _ _).trans hk
    | ⟨1, _⟩ => exact rhs_col _ _)
  rw [el, er]

/-- The bias column, spread along the rows, at row `p` and any column: the column's entry of row `p`. -/
theorem bias_at (bv : Vec Ideal S512x1 .f32) (p : Fin 512) (q : Fin 1024) :
    broadcastTo S512x1024 (shapeCast S512x1 bv shapeCasts_S512x1_S512x1) broadcasts_S512x1_S512x1024 (ix2 p q) = bv (ix2 p (0 : Fin 1)) := by
  rw [shapeCast_self]
  exact broadcastTo_a1_ab_apply bv _ p q

theorem tanh_at {s : Shape} {φ : FTy} (a : FVec Ideal s φ) (i : s.Idx) : tanh a i = Ideal.tanh (a i) := rfl
theorem logistic_at {s : Shape} {φ : FTy} (a : FVec Ideal s φ) (i : s.Idx) : logistic a i = Ideal.logistic (a i) := rfl

/-! ## The pre-activations -/

/-- Row `p` of a weight block against column `q` of an activation block. -/
def dot (w : FVec Ideal S512x512 .bf16) (a : S512x1024.Idx → EReal) (p : Fin 512) (q : Fin 1024) : EReal :=
  ∑ k : Fin 512, w (ix2 p k) * a (ix2 k q)

/-- Two products and the bias. -/
theorem gate₂_at (w₁ w₂ : FVec Ideal S512x512 .bf16) (a₁ a₂ : FVec Ideal S512x1024 .bf16) (bv : Vec Ideal S512x1 .f32) (p : Fin 512) (q : Fin 1024) :
    addf (addf (matmul dot_S512x512_S512x1024_S512x1024_1_0_0_1_n_n none (shapeCast S512x512 w₁ shapeCasts_S512x512_S512x512) a₁ (constant S512x1024 .f32 0x00000000#32))
               (matmul dot_S512x512_S512x1024_S512x1024_1_0_0_1_n_n none (shapeCast S512x512 w₂ shapeCasts_S512x512_S512x512) a₂ (constant S512x1024 .f32 0x00000000#32)))
         (broadcastTo S512x1024 (shapeCast S512x1 bv shapeCasts_S512x1_S512x1) broadcasts_S512x1_S512x1024) (ix2 p q)
      = (dot w₁ a₁ p q + dot w₂ a₂ p q) + bv (ix2 p (0 : Fin 1)) := by
  rw [addf_apply, addf_apply, mm_at, mm_at, bias_at]
  rfl

/-- Three products and the bias. -/
theorem gate₃_at (w₁ w₂ w₃ : FVec Ideal S512x512 .bf16) (a₁ a₂ a₃ : FVec Ideal S512x1024 .bf16) (bv : Vec Ideal S512x1 .f32) (p : Fin 512) (q : Fin 1024) :
    addf (addf (addf (matmul dot_S512x512_S512x1024_S512x1024_1_0_0_1_n_n none (shapeCast S512x512 w₁ shapeCasts_S512x512_S512x512) a₁ (constant S512x1024 .f32 0x00000000#32))
                     (matmul dot_S512x512_S512x1024_S512x1024_1_0_0_1_n_n none (shapeCast S512x512 w₂ shapeCasts_S512x512_S512x512) a₂ (constant S512x1024 .f32 0x00000000#32)))
               (matmul dot_S512x512_S512x1024_S512x1024_1_0_0_1_n_n none (shapeCast S512x512 w₃ shapeCasts_S512x512_S512x512) a₃ (constant S512x1024 .f32 0x00000000#32)))
         (broadcastTo S512x1024 (shapeCast S512x1 bv shapeCasts_S512x1_S512x1) broadcasts_S512x1_S512x1024) (ix2 p q)
      = ((dot w₁ a₁ p q + dot w₂ a₂ p q) + dot w₃ a₃ p q) + bv (ix2 p (0 : Fin 1)) := by
  rw [addf_apply, addf_apply, addf_apply, mm_at, mm_at, mm_at, bias_at]
  rfl

/-! ## The payloads -/

/-- The candidate: tanh of two products and a bias. -/
theorem cand_at (v0 v1 : Vec Ideal S512x1024 .f32) (v6 v9 : Vec Ideal S512x512 .bf16) (v13 : Vec Ideal S512x1 .f32) (p : Fin 512) (q : Fin 1024) :
    k0_pay4 v0 v1 v6 v9 v13 (ix2 p q) = Ideal.tanh ((dot v6 v0 p q + dot v9 v1 p q) + v13 (ix2 p (0 : Fin 1))) := by
  unfold k0_pay4 k0_pay1 k0_pay2
  rw [tanh_at, gate₂_at]
  rfl

/-- The input gate: the logistic function of three products and a bias. -/
theorem igate_at (v0 v1 v2 : Vec Ideal S512x1024 .f32) (v18 v21 v25 : Vec Ideal S512x512 .bf16) (v29 : Vec Ideal S512x1 .f32) (p : Fin 512) (q : Fin 1024) :
    k0_pay5 v0 v1 v2 v18 v21 v25 v29 (ix2 p q)
      = Ideal.logistic (((dot v18 v0 p q + dot v21 v1 p q) + dot v25 v2 p q) + v29 (ix2 p (0 : Fin 1))) := by
  unfold k0_pay5 k0_pay1 k0_pay2 k0_pay3
  rw [logistic_at, gate₃_at]
  rfl

/-- The new memory: candidate times input gate, plus read gate times the old memory. -/
theorem mem_at (v2 : Vec Ideal S512x1024 .f32) (v3 v4 v5 : FVec Ideal S512x1024 .bf16) (v17 v33 : FVec Ideal S512x1024 .f32)
    (v34 v37 v41 : Vec Ideal S512x512 .bf16) (v45 : Vec Ideal S512x1 .f32) (p : Fin 512) (q : Fin 1024) :
    k0_pay6 v2 v3 v4 v5 v17 v33 v34 v37 v41 v45 (ix2 p q)
      = v17 (ix2 p q) * v33 (ix2 p q)
        + Ideal.logistic (((dot v34 v3 p q + dot v37 v4 p q) + dot v41 v5 p q) + v45 (ix2 p (0 : Fin 1))) * v2 (ix2 p q) := by
  unfold k0_pay6
  rw [addf_apply, mulf_apply, mulf_apply, logistic_at, gate₃_at]

/-- The new output: write gate times the new memory. -/
theorem out_at (v2 : Vec Ideal S512x1024 .f32) (v3 v4 v5 : FVec Ideal S512x1024 .bf16) (v17 v33 : FVec Ideal S512x1024 .f32)
    (v34 v37 v41 : Vec Ideal S512x512 .bf16) (v45 : Vec Ideal S512x1 .f32) (v50 v53 v57 : Vec Ideal S512x512 .bf16) (v61 : Vec Ideal S512x1 .f32)
    (p : Fin 512) (q : Fin 1024) :
    k0_pay7 v2 v3 v4 v5 v17 v33 v34 v37 v41 v45 v50 v53 v57 v61 (ix2 p q)
      = Ideal.logistic (((dot v50 v3 p q + dot v53 v4 p q) + dot v57 v5 p q) + v61 (ix2 p (0 : Fin 1)))
        * k0_pay6 v2 v3 v4 v5 v17 v33 v34 v37 v41 v45 (ix2 p q) := by
  unfold k0_pay7
  rw [mulf_apply, logistic_at, gate₃_at]

end Cert.KernelIdeal.Body

end
-- ==== Proof.Windows.lean ====
/-
  What the arrays staged for the kernel's one region hold, entry by entry, over the extended reals.

  Before the region the program cuts each of eight 512 x 513 arguments into its first 512 columns and its last
  column, adds the last columns in four pairs, and narrows eleven 512 x 512 arrays to the shorter format. Over the
  extended reals a narrowing changes no value, a unit-stride slice read at an index is the operand read at the index
  shifted by the slice's offsets, and a sum of arrays is the entrywise sum. Hence, at every row p and column k < 512:

  * each of the eight weight arrays holds, at (p, k), its argument's entry (p, k) (column k of the 513);
  * each of the three memory-weight arrays holds, at (p, k), its 512-column argument's entry (p, k);
  * each of the four bias columns holds, at (p, 0), the sum of its two arguments' entries (p, 512).

  Each array is first written as the operations' functions applied to the arguments as launched (no operation writes
  an argument, and each array is written once); the fifteen entry statements then follow from three readings at an
  index stated over arrays of the literal shapes.
-/
import proofs.«172792_j54262616818002_1_alg».proof.Proof.Gen.KernelIdeal.Frame
import Idealize.ShloMosaic.Lib.Pipeline.Value
import Idealize.ShloMosaic.Lib.ValueIdx
import Idealize.ShloMosaic.Lib.StableHlo.Run
noncomputable section
namespace Cert.KernelIdeal.Windows
open Cert.KernelIdeal Cert.KernelIdeal.Gen Idealize.ShloMosaic Idealize.ShloMosaic.TcCoe Idealize.ShloMosaic.ValueIdx Idealize.SL.Sem

/-! ## Three readings at an index, over arrays of the literal shapes

A unit-stride slice read at an index is the array at the index shifted by the offsets; at the extended reals a
narrowing of the format is the identity and a sum of arrays is the sum of their entries. -/

/-- The first 512 columns of a 513-column array, narrowed: at row p, column k it holds the array's entry (p, k). -/
theorem slice_narrow_at (x : FVec Ideal S512x513 .f32) (hs : S512x513.Slices ![0, 0] S512x512)
    (hb : FTy.bits .bf16 < FTy.bits .f32) (p k : Fin 512) :
    (truncf .bf16 (extractStridedSlice S512x512 ![0, 0] x hs) hb : FVec Ideal S512x512 .bf16) (ix2 p k)
      = x (ix2 p k.castSucc) := by
  rw [truncf_apply]
  refine extractStridedSlice_apply _ x hs (ix2 p k) (ix2 p k.castSucc) fun a => ?_
  match a with
  | ⟨0, _⟩ => show p.val = 0 + p.val; omega
  | ⟨1, _⟩ => show k.castSucc.val = 0 + k.val; simp

/-- A narrowed array holds, at every index, what the array holds. -/
theorem narrow_at (x : FVec Ideal S512x512 .f32) (hb : FTy.bits .bf16 < FTy.bits .f32) (p k : Fin 512) :
    (truncf .bf16 x hb : FVec Ideal S512x512 .bf16) (ix2 p k) = x (ix2 p k) := rfl

/-- The sum of two 513-column arrays' last columns: at row p it is the sum of the two entries (p, 512). -/
theorem last_cols_sum_at (x y : FVec Ideal S512x513 .f32) (hs : S512x513.Slices ![0, 512] S512x1) (p : Fin 512) :
    (addf (extractStridedSlice S512x1 ![0, 512] x hs) (extractStridedSlice S512x1 ![0, 512] y hs) : FVec Ideal S512x1 .f32)
        (ix2 p (0 : Fin 1))
      = x (ix2 p (Fin.last 512)) + y (ix2 p (Fin.last 512)) := by
  rw [addf_apply]
  have hx : ∀ z : FVec Ideal S512x513 .f32,
      extractStridedSlice S512x1 ![0, 512] z hs (ix2 p (0 : Fin 1)) = z (ix2 p (Fin.last 512)) := fun z =>
    extractStridedSlice_apply _ z hs (ix2 p (0 : Fin 1)) (ix2 p (Fin.last 512)) fun a => by
      match a with
      | ⟨0, _⟩ => show p.val = 0 + p.val; omega
      | ⟨1, _⟩ => show (Fin.last 512).val = 512 + (0 : Fin 1).val; simp
  rw [hx x, hx y]

variable (m : (ℓ : Loc nD τ sig) → Buf (Elt Ideal) ℓ)

/-! ## The arrays as terms over the launch contents

Each buffer below is written once by the operations that precede the region, from arguments no operation writes:
its contents when the region starts are the operations' functions applied to the arguments as launched. -/

/-- Buffer 20: argument 6's first 512 columns, narrowed. -/
theorem v20_e (c : Dev nD) :
    @Eq (FVec Ideal S512x512 .bf16) (V m c main_v20)
      (truncf .bf16 (extractStridedSlice S512x512 ![0, 0] (m ((c : Thread nD τ).loc main_arg6) : FVec Ideal S512x513 .f32) slices_S512x513_S512x512_0_0) bitsLt_bf16_f32) := by
  dsimp only [Gen.V, Gen.hostOps0]
  after_results

/-- Buffer 21: argument 7's first 512 columns, narrowed. -/
theorem v21_e (c : Dev nD) :
    @Eq (FVec Ideal S512x512 .bf16) (V m c main_v21)
      (truncf .bf16 (extractStridedSlice S512x512 ![0, 0] (m ((c : Thread nD τ).loc main_arg7) : FVec Ideal S512x513 .f32) slices_S512x513_S512x512_0_0) bitsLt_bf16_f32) := by
  dsimp only [Gen.V, Gen.hostOps0]
  after_results

/-- Buffer 22: argument 3's first 512 columns, narrowed. -/
theorem v22_e (c : Dev nD) :
    @Eq (FVec Ideal S512x512 .bf16) (V m c main_v22)
      (truncf .bf16 (extractStridedSlice S512x512 ![0, 0] (m ((c : Thread nD τ).loc main_arg3) : FVec Ideal S512x513 .f32) slices_S512x513_S512x512_0_0) bitsLt_bf16_f32) := by
  dsimp only [Gen.V, Gen.hostOps0]
  after_results

/-- Buffer 23: argument 4's first 512 columns, narrowed. -/
theorem v23_e (c : Dev nD) :
    @Eq (FVec Ideal S512x512 .bf16) (V m c main_v23)
      (truncf .bf16 (extractStridedSlice S512x512 ![0, 0] (m ((c : Thread nD τ).loc main_arg4) : FVec Ideal S512x513 .f32) slices_S512x513_S512x512_0_0) bitsLt_bf16_f32) := by
  dsimp only [Gen.V, Gen.hostOps0]
  after_results

/-- Buffer 25: argument 8's first 512 columns, narrowed. -/
theorem v25_e (c : Dev nD) :
    @Eq (FVec Ideal S512x512 .bf16) (V m c main_v25)
      (truncf .bf16 (extractStridedSlice S512x512 ![0, 0] (m ((c : Thread nD τ).loc main_arg8) : FVec Ideal S512x513 .f32) slices_S512x513_S512x512_0_0) bitsLt_bf16_f32) := by
  dsimp only [Gen.V, Gen.hostOps0]
  after_results

/-- Buffer 26: argument 9's first 512 columns, narrowed. -/
theorem v26_e (c : Dev nD) :
    @Eq (FVec Ideal S512x512 .bf16) (V m c main_v26)
      (truncf .bf16 (extractStridedSlice S512x512 ![0, 0] (m ((c : Thread nD τ).loc main_arg9) : FVec Ideal S512x513 .f32) slices_S512x513_S512x512_0_0) bitsLt_bf16_f32) := by
  dsimp only [Gen.V, Gen.hostOps0]
  after_results

/-- Buffer 28: argument 11's first 512 columns, narrowed. -/
theorem v28_e (c : Dev nD) :
    @Eq (FVec Ideal S512x512 .bf16) (V m c main_v28)
      (truncf .bf16 (extractStridedSlice S512x512 ![0, 0] (m ((c : Thread nD τ).loc main_arg11) : FVec Ideal S512x513 .f32) slices_S512x513_S512x512_0_0) bitsLt_bf16_f32) := by
  dsimp only [Gen.V, Gen.hostOps0]
  after_results

/-- Buffer 29: argument 12's first 512 columns, narrowed. -/
theorem v29_e (c : Dev nD) :
    @Eq (FVec Ideal S512x512 .bf16) (V m c main_v29)
      (truncf .bf16 (extractStridedSlice S512x512 ![0, 0] (m ((c : Thread nD τ).loc main_arg12) : FVec Ideal S512x513 .f32) slices_S512x513_S512x512_0_0) bitsLt_bf16_f32) := by
  dsimp only [Gen.V, Gen.hostOps0]
  after_results

/-- Buffer 24: argument 5, narrowed. -/
theorem v24_e (c : Dev nD) :
    @Eq (FVec Ideal S512x512 .bf16) (V m c main_v24)
      (truncf .bf16 (m ((c : Thread nD τ).loc main_arg5) : FVec Ideal S512x512 .f32) bitsLt_bf16_f32) := by
  dsimp only [Gen.V, Gen.hostOps0]
  after_results

/-- Buffer 27: argument 10, narrowed. -/
theorem v27_e (c : Dev nD) :
    @Eq (FVec Ideal S512x512 .bf16) (V m c main_v27)
      (truncf .bf16 (m ((c : Thread nD τ).loc main_arg10) : FVec Ideal S512x512 .f32) bitsLt_bf16_f32) := by
  dsimp only [Gen.V, Gen.hostOps0]
  after_results

/-- Buffer 30: argument 13, narrowed. -/
theorem v30_e (c : Dev nD) :
    @Eq (FVec Ideal S512x512 .bf16) (V m c main_v30)
      (truncf .bf16 (m ((c : Thread nD τ).loc main_arg13) : FVec Ideal S512x512 .f32) bitsLt_bf16_f32) := by
  dsimp only [Gen.V, Gen.hostOps0]
  after_results

/-- Buffer 4: the sum of the last columns of arguments 6 and 7. -/
theorem v4_e (c : Dev nD) :
    @Eq (FVec Ideal S512x1 .f32) (V m c main_v4)
      (addf (extractStridedSlice S512x1 ![0, 512] (m ((c : Thread nD τ).loc main_arg6) : FVec Ideal S512x513 .f32) slices_S512x513_S512x1_0_512)
            (extractStridedSlice S512x1 ![0, 512] (m ((c : Thread nD τ).loc main_arg7) : FVec Ideal S512x513 .f32) slices_S512x513_S512x1_0_512)) := by
  dsimp only [Gen.V, Gen.hostOps0]
  after_results

/-- Buffer 9: the sum of the last columns of arguments 3 and 4. -/
theorem v9_e (c : Dev nD) :
    @Eq (FVec Ideal S512x1 .f32) (V m c main_v9)
      (addf (extractStridedSlice S512x1 ![0, 512] (m ((c : Thread nD τ).loc main_arg3) : FVec Ideal S512x513 .f32) slices_S512x513_S512x1_0_512)
            (extractStridedSlice S512x1 ![0, 512] (m ((c : Thread nD τ).loc main_arg4) : FVec Ideal S512x513 .f32) slices_S512x513_S512x1_0_512)) := by
  dsimp only [Gen.V, Gen.hostOps0]
  after_results

/-- Buffer 14: the sum of the last columns of arguments 8 and 9. -/
theorem v14_e (c : Dev nD) :
    @Eq (FVec Ideal S512x1 .f32) (V m c main_v14)
      (addf (extractStridedSlice S512x1 ![0, 512] (m ((c : Thread nD τ).loc main_arg8) : FVec Ideal S512x513 .f32) slices_S512x513_S512x1_0_512)
            (extractStridedSlice S512x1 ![0, 512] (m ((c : Thread nD τ).loc main_arg9) : FVec Ideal S512x513 .f32) slices_S512x513_S512x1_0_512)) := by
  dsimp only [Gen.V, Gen.hostOps0]
  after_results

/-- Buffer 19: the sum of the last columns of arguments 11 and 12. -/
theorem v19_e (c : Dev nD) :
    @Eq (FVec Ideal S512x1 .f32) (V m c main_v19)
      (addf (extractStridedSlice S512x1 ![0, 512] (m ((c : Thread nD τ).loc main_arg11) : FVec Ideal S512x513 .f32) slices_S512x513_S512x1_0_512)
            (extractStridedSlice S512x1 ![0, 512] (m ((c : Thread nD τ).loc main_arg12) : FVec Ideal S512x513 .f32) slices_S512x513_S512x1_0_512)) := by
  dsimp only [Gen.V, Gen.hostOps0]
  after_results

/-! ## The arrays at an index -/

-- eight weights: the first 512 columns of a 513-column argument, narrowed
theorem v20_at (c : Dev nD) (p k : Fin 512) :
    (V m c main_v20 : S512x512.Idx → EReal) (ix2 p k) = (m ((c : Thread nD τ).loc main_arg6) : S512x513.Idx → EReal) (ix2 p k.castSucc) :=
  (congrFun (v20_e m c) (ix2 p k)).trans (slice_narrow_at _ _ _ p k)

theorem v21_at (c : Dev nD) (p k : Fin 512) :
    (V m c main_v21 : S512x512.Idx → EReal) (ix2 p k) = (m ((c : Thread nD τ).loc main_arg7) : S512x513.Idx → EReal) (ix2 p k.castSucc) :=
  (congrFun (v21_e m c) (ix2 p k)).trans (slice_narrow_at _ _ _ p k)

theorem v22_at (c : Dev nD) (p k : Fin 512) :
    (V m c main_v22 : S512x512.Idx → EReal) (ix2 p k) = (m ((c : Thread nD τ).loc main_arg3) : S512x513.Idx → EReal) (ix2 p k.castSucc) :=
  (congrFun (v22_e m c) (ix2 p k)).trans (slice_narrow_at _ _ _ p k)

theorem v23_at (c : Dev nD) (p k : Fin 512) :
    (V m c main_v23 : S512x512.Idx → EReal) (ix2 p k) = (m ((c : Thread nD τ).loc main_arg4) : S512x513.Idx → EReal) (ix2 p k.castSucc) :=
  (congrFun (v23_e m c) (ix2 p k)).trans (slice_narrow_at _ _ _ p k)

theorem v25_at (c : Dev nD) (p k : Fin 512) :
    (V m c main_v25 : S512x512.Idx → EReal) (ix2 p k) = (m ((c : Thread nD τ).loc main_arg8) : S512x513.Idx → EReal) (ix2 p k.castSucc) :=
  (congrFun (v25_e m c) (ix2 p k)).trans (slice_narrow_at _ _ _ p k)

theorem v26_at (c : Dev nD) (p k : Fin 512) :
    (V m c main_v26 : S512x512.Idx → EReal) (ix2 p k) = (m ((c : Thread nD τ).loc main_arg9) : S512x513.Idx → EReal) (ix2 p k.castSucc) :=
  (congrFun (v26_e m c) (ix2 p k)).trans (slice_narrow_at _ _ _ p k)

theorem v28_at (c : Dev nD) (p k : Fin 512) :
    (V m c main_v28 : S512x512.Idx → EReal) (ix2 p k) = (m ((c : Thread nD τ).loc main_arg11) : S512x513.Idx → EReal) (ix2 p k.castSucc) :=
  (congrFun (v28_e m c) (ix2 p k)).trans (slice_narrow_at _ _ _ p k)

theorem v29_at (c : Dev nD) (p k : Fin 512) :
    (V m c main_v29 : S512x512.Idx → EReal) (ix2 p k) = (m ((c : Thread nD τ).loc main_arg12) : S512x513.Idx → EReal) (ix2 p k.castSucc) :=
  (congrFun (v29_e m c) (ix2 p k)).trans (slice_narrow_at _ _ _ p k)

-- three memory weights: a 512-column argument, narrowed
theorem v24_at (c : Dev nD) (p k : Fin 512) :
    (V m c main_v24 : S512x512.Idx → EReal) (ix2 p k) = (m ((c : Thread nD τ).loc main_arg5) : S512x512.Idx → EReal) (ix2 p k) :=
  (congrFun (v24_e m c) (ix2 p k)).trans (narrow_at _ _ p k)

theorem v27_at (c : Dev nD) (p k : Fin 512) :
    (V m c main_v27 : S512x512.Idx → EReal) (ix2 p k) = (m ((c : Thread nD τ).loc main_arg10) : S512x512.Idx → EReal) (ix2 p k) :=
  (congrFun (v27_e m c) (ix2 p k)).trans (narrow_at _ _ p k)

theorem v30_at (c : Dev nD) (p k : Fin 512) :
    (V m c main_v30 : S512x512.Idx → EReal) (ix2 p k) = (m ((c : Thread nD τ).loc main_arg13) : S512x512.Idx → EReal) (ix2 p k) :=
  (congrFun (v30_e m c) (ix2 p k)).trans (narrow_at _ _ p k)

-- four bias columns: the sum of two arguments' last columns (the sum is the extended reals', its type named because
-- the summands' own type only reduces to it)
theorem v4_at (c : Dev nD) (p : Fin 512) :
    (V m c main_v4 : S512x1.Idx → EReal) (ix2 p (0 : Fin 1))
      = HAdd.hAdd (α := EReal) (β := EReal) ((m ((c : Thread nD τ).loc main_arg6) : S512x513.Idx → EReal) (ix2 p (Fin.last 512)))
          ((m ((c : Thread nD τ).loc main_arg7) : S512x513.Idx → EReal) (ix2 p (Fin.last 512))) :=
  (congrFun (v4_e m c) (ix2 p (0 : Fin 1))).trans (last_cols_sum_at _ _ _ p)

theorem v9_at (c : Dev nD) (p : Fin 512) :
    (V m c main_v9 : S512x1.Idx → EReal) (ix2 p (0 : Fin 1))
      = HAdd.hAdd (α := EReal) (β := EReal) ((m ((c : Thread nD τ).loc main_arg3) : S512x513.Idx → EReal) (ix2 p (Fin.last 512)))
          ((m ((c : Thread nD τ).loc main_arg4) : S512x513.Idx → EReal) (ix2 p (Fin.last 512))) :=
  (congrFun (v9_e m c) (ix2 p (0 : Fin 1))).trans (last_cols_sum_at _ _ _ p)

theorem v14_at (c : Dev nD) (p : Fin 512) :
    (V m c main_v14 : S512x1.Idx → EReal) (ix2 p (0 : Fin 1))
      = HAdd.hAdd (α := EReal) (β := EReal) ((m ((c : Thread nD τ).loc main_arg8) : S512x513.Idx → EReal) (ix2 p (Fin.last 512)))
          ((m ((c : Thread nD τ).loc main_arg9) : S512x513.Idx → EReal) (ix2 p (Fin.last 512))) :=
  (congrFun (v14_e m c) (ix2 p (0 : Fin 1))).trans (last_cols_sum_at _ _ _ p)

theorem v19_at (c : Dev nD) (p : Fin 512) :
    (V m c main_v19 : S512x1.Idx → EReal) (ix2 p (0 : Fin 1))
      = HAdd.hAdd (α := EReal) (β := EReal) ((m ((c : Thread nD τ).loc main_arg11) : S512x513.Idx → EReal) (ix2 p (Fin.last 512)))
          ((m ((c : Thread nD τ).loc main_arg12) : S512x513.Idx → EReal) (ix2 p (Fin.last 512))) :=
  (congrFun (v19_e m c) (ix2 p (0 : Fin 1))).trans (last_cols_sum_at _ _ _ p)

end Cert.KernelIdeal.Windows
end
-- ==== Proof.Cell.lean ====
/-
  The gated memory cell, index by index, on the extended reals.

  With `x`, `r`, `m` the input, the previous output and the previous memory (each 512 × 32768, one column per batch
  entry) and every gate's weights carrying its bias as a last, 513th column, the cell is

    z_inp  = W_inp  · x + W_rinp · r                      + (bias W_inp + bias W_rinp)
    z_g    = W_g    · x + W_rg   · r + W_mg · m           + (bias W_g   + bias W_rg)      for each of the three gates g
    mem'   = tanh z_inp * σ z_ig + σ z_rg * m
    out'   = σ z_wg * mem'

  where `W · x` at row `h`, column `b` is the sum over the first 512 columns `k` of `W (h, k) * x (k, b)`, and σ is the
  logistic function. This file states that value (`newMem`, `newOut`) and the two facts that let a program which appends
  a row of ones to `x` and `r` and multiplies by the whole 513-column matrices arrive at it: the 513-term dot against a
  column extended by `1` is the 512-term dot plus the bias entry (`sum_ones_row`), and sums of four or five terms may be
  regrouped (`regroup₂`, `regroup₃`, `regroup₃'`). Only commutativity and associativity of `+` and `w * 1 = w` are used,
  which hold at the infinities too: nothing here asks the entries to be finite.
-/
import Idealize.ShloMosaic.PureOps.Ideal
import Idealize.ShloMosaic.Lib.ValueIdx

noncomputable section

open scoped BigOperators

namespace Cert.Cell

open Idealize.ShloMosaic Idealize.ShloMosaic.ValueIdx

/-- An activation array: 512 features by 32768 batch entries. -/
abbrev Act : Type := (⟨2, ![512, 32768]⟩ : Shape).Idx → EReal
/-- A weight matrix with its bias as the last of 513 columns. -/
abbrev WB : Type := (⟨2, ![512, 513]⟩ : Shape).Idx → EReal
/-- A weight matrix without a bias column (the memory's weights). -/
abbrev WM : Type := (⟨2, ![512, 512]⟩ : Shape).Idx → EReal

/-- Row `h` of the first 512 columns of `W` against column `b` of `a`. -/
def proj (W : WB) (a : Act) (h : Fin 512) (b : Fin 32768) : EReal :=
  ∑ k : Fin 512, W (ix2 h k.castSucc) * a (ix2 k b)

/-- Row `h` of `W` against column `b` of `a`, for a matrix with no bias column. -/
def projM (W : WM) (a : Act) (h : Fin 512) (b : Fin 32768) : EReal :=
  ∑ k : Fin 512, W (ix2 h k) * a (ix2 k b)

/-- The bias of row `h`: the entry in the last column. -/
def bias (W : WB) (h : Fin 512) : EReal := W (ix2 h (Fin.last 512))

/-- The candidate's pre-activation: two projections and the two biases. -/
def pre₂ (Wx Wr : WB) (x r : Act) (h : Fin 512) (b : Fin 32768) : EReal :=
  (proj Wx x h b + proj Wr r h b) + (bias Wx h + bias Wr h)

/-- A gate's pre-activation: three projections and the two biases. -/
def pre₃ (Wx Wr : WB) (Wm : WM) (x r m : Act) (h : Fin 512) (b : Fin 32768) : EReal :=
  ((proj Wx x h b + proj Wr r h b) + projM Wm m h b) + (bias Wx h + bias Wr h)

/-- The new memory at row `h`, column `b`: the gated candidate plus the kept share of the old memory. The weights come
    in the order input gate (`Wig`, `Wrig`, `Wmig`), candidate (`Wi`, `Wri`), read gate (`Wrg`, `Wrrg`, `Wmrg`). -/
def memAt (x r m : Act) (Wig Wrig : WB) (Wmig : WM) (Wi Wri Wrg Wrrg : WB) (Wmrg : WM) (h : Fin 512) (b : Fin 32768) : EReal :=
  Ideal.tanh (pre₂ Wi Wri x r h b) * Ideal.logistic (pre₃ Wig Wrig Wmig x r m h b)
    + Ideal.logistic (pre₃ Wrg Wrrg Wmrg x r m h b) * m (ix2 h b)

/-- The new output at row `h`, column `b`: the write gate (`Wwg`, `Wrwg`, `Wmwg`) times the new memory. -/
def outAt (x r m : Act) (Wig Wrig : WB) (Wmig : WM) (Wi Wri Wrg Wrrg : WB) (Wmrg : WM) (Wwg Wrwg : WB) (Wmwg : WM)
    (h : Fin 512) (b : Fin 32768) : EReal :=
  Ideal.logistic (pre₃ Wwg Wrwg Wmwg x r m h b) * memAt x r m Wig Wrig Wmig Wi Wri Wrg Wrrg Wmrg h b

/-- The new memory as an array. -/
def newMem (x r m : Act) (Wig Wrig : WB) (Wmig : WM) (Wi Wri Wrg Wrrg : WB) (Wmrg : WM) : Act :=
  fun i => memAt x r m Wig Wrig Wmig Wi Wri Wrg Wrrg Wmrg (i 0) (i 1)

/-- The new output as an array. -/
def newOut (x r m : Act) (Wig Wrig : WB) (Wmig : WM) (Wi Wri Wrg Wrrg : WB) (Wmrg : WM) (Wwg Wrwg : WB) (Wmwg : WM) : Act :=
  fun i => outAt x r m Wig Wrig Wmig Wi Wri Wrg Wrrg Wmrg Wwg Wrwg Wmwg (i 0) (i 1)

/-- A 513-term dot of row `h` of `W` against a column that is column `b` of `a` with a `1` appended is the 512-term dot
    plus the row's bias: the last term is `W (h, 512) * 1`. -/
theorem sum_ones_row (W : WB) (a : Act) (g : Fin 513 → EReal) (h : Fin 512) (b : Fin 32768)
    (hg : ∀ k : Fin 512, g k.castSucc = a (ix2 k b)) (hl : g (Fin.last 512) = 1) :
    ∑ k : Fin 513, W (ix2 h k) * g k = proj W a h b + bias W h := by
  rw [Fin.sum_univ_castSucc, hl, mul_one]
  exact congrArg (· + W (ix2 h (Fin.last 512))) (Finset.sum_congr rfl fun k _ => by rw [hg k])

/-- `(P₁ + b₁) + (P₂ + b₂)` is the two projections, then the two biases. -/
theorem regroup₂ (P₁ b₁ P₂ b₂ : EReal) : (P₁ + b₁) + (P₂ + b₂) = (P₁ + P₂) + (b₁ + b₂) :=
  add_add_add_comm P₁ b₁ P₂ b₂

/-- With the memory's projection added before the second biased projection. -/
theorem regroup₃ (P₁ b₁ M P₂ b₂ : EReal) : ((P₁ + b₁) + M) + (P₂ + b₂) = ((P₁ + P₂) + M) + (b₁ + b₂) := by
  ac_rfl

/-- With the memory's projection added last. -/
theorem regroup₃' (P₁ b₁ P₂ b₂ M : EReal) : ((P₁ + b₁) + (P₂ + b₂)) + M = ((P₁ + P₂) + M) + (b₁ + b₂) := by
  ac_rfl

end Cert.Cell

end
-- ==== Proof.KernelCell.lean ====
/-
  The kernel's two results are the gated memory cell of its arguments.

  Point `t` writes back, at row `p` and column `q` of its block, the body's arithmetic of the staged blocks (Body.lean).
  Each weight block is the first 512 columns of a weight argument (or a whole memory-weight argument), each bias block
  the sum of two arguments' last columns (Windows.lean), and each activation block is columns `1024 t … 1024 t + 1023` of
  its array (Blocks.lean). So the entry written is the cell's value at row `p` and batch column `1024 t + q` (Cell.lean):
  every dot of the body is the specification's projection, term by term, and every bias entry the sum of the two biases.
  The 32 blocks tile the 512 × 32768 result (column `b` lies in block `b / 1024`), so each result array ends as the
  cell's array.
-/
import proofs.«172792_j54262616818002_1_alg».proof.Proof.Blocks
import proofs.«172792_j54262616818002_1_alg».proof.Proof.Body
import proofs.«172792_j54262616818002_1_alg».proof.Proof.Windows
import proofs.«172792_j54262616818002_1_alg».proof.Proof.Cell

noncomputable section

open scoped BigOperators

namespace Cert.KernelIdeal.CellValue

open Cert.KernelIdeal Cert.KernelIdeal.Gen Idealize.ShloMosaic Idealize.ShloMosaic.TcCoe Idealize.ShloMosaic.ValueIdx Idealize.SL.Sem
open Idealize.ShloMosaic.Pipeline (Dat)
open Cert.Cell (Act WB WM)

variable (m : (ℓ : Loc nD τ sig) → Buf (Elt Ideal) ℓ) (ρ : Dev nD → PrngReg)

/-! ## The arguments, as the cell's arrays -/

abbrev x (c : Dev nD) : Act := m ((c : Thread nD τ).loc main_arg0)
abbrev r (c : Dev nD) : Act := m ((c : Thread nD τ).loc main_arg1)
abbrev mem (c : Dev nD) : Act := m ((c : Thread nD τ).loc main_arg2)
abbrev Wig (c : Dev nD) : WB := m ((c : Thread nD τ).loc main_arg3)
abbrev Wrig (c : Dev nD) : WB := m ((c : Thread nD τ).loc main_arg4)
abbrev Wmig (c : Dev nD) : WM := m ((c : Thread nD τ).loc main_arg5)
abbrev Wi (c : Dev nD) : WB := m ((c : Thread nD τ).loc main_arg6)
abbrev Wri (c : Dev nD) : WB := m ((c : Thread nD τ).loc main_arg7)
abbrev Wrg (c : Dev nD) : WB := m ((c : Thread nD τ).loc main_arg8)
abbrev Wrrg (c : Dev nD) : WB := m ((c : Thread nD τ).loc main_arg9)
abbrev Wmrg (c : Dev nD) : WM := m ((c : Thread nD τ).loc main_arg10)
abbrev Wwg (c : Dev nD) : WB := m ((c : Thread nD τ).loc main_arg11)
abbrev Wrwg (c : Dev nD) : WB := m ((c : Thread nD τ).loc main_arg12)
abbrev Wmwg (c : Dev nD) : WM := m ((c : Thread nD τ).loc main_arg13)

/-- The new memory of the arguments. -/
abbrev cellMem (c : Dev nD) : Act :=
  Cert.Cell.newMem (x m c) (r m c) (mem m c) (Wig m c) (Wrig m c) (Wmig m c) (Wi m c) (Wri m c) (Wrg m c) (Wrrg m c) (Wmrg m c)
/-- The new output of the arguments. -/
abbrev cellOut (c : Dev nD) : Act :=
  Cert.Cell.newOut (x m c) (r m c) (mem m c) (Wig m c) (Wrig m c) (Wmig m c) (Wi m c) (Wri m c) (Wrg m c) (Wrrg m c) (Wmrg m c)
    (Wwg m c) (Wrwg m c) (Wmwg m c)

/-! ## A block's dot is the specification's projection -/

/-- Term by term: the weight block's row against the activation block's column is the weight argument's row (its first
    512 columns) against the array's column. -/
theorem dot_proj (W : FVec Ideal S512x512 .bf16) (X : S512x1024.Idx → EReal) (Wc : WB) (A : Act) (p : Fin 512) (q : Fin 1024)
    (b : Fin 32768) (hW : ∀ k : Fin 512, W (ix2 p k) = Wc (ix2 p k.castSucc)) (hX : ∀ k : Fin 512, X (ix2 k q) = A (ix2 k b)) :
    Body.dot W X p q = Cert.Cell.proj Wc A p b :=
  Finset.sum_congr rfl fun k _ => by rw [hW k, hX k]

/-- The same for a memory-weight argument, which has no bias column. -/
theorem dot_projM (W : FVec Ideal S512x512 .bf16) (X : S512x1024.Idx → EReal) (Wc : WM) (A : Act) (p : Fin 512) (q : Fin 1024)
    (b : Fin 32768) (hW : ∀ k : Fin 512, W (ix2 p k) = Wc (ix2 p k)) (hX : ∀ k : Fin 512, X (ix2 k q) = A (ix2 k b)) :
    Body.dot W X p q = Cert.Cell.projM Wc A p b :=
  Finset.sum_congr rfl fun k _ => by rw [hW k, hX k]

/-! ## One entry of what a point writes back -/

section entry

variable (c : Dev nD) (t : Fin cfg0.N) (p : Fin 512) (q : Fin 1024) (b : Fin 32768) (hb : b.val = t.val * 1024 + q.val)
include hb

/-- The candidate at row `p`, column `q` of point `t`'s block. -/
theorem cand_entry :
    k0_pay4 (iblk m c 0 t) (iblk m c 1 t) (iblk m c 3 t) (iblk m c 4 t) (iblk m c 5 t) (ix2 p q)
      = Ideal.tanh (Cert.Cell.pre₂ (Wi m c) (Wri m c) (x m c) (r m c) p b) := by
  rw [Body.cand_at (iblk m c 0 t) (iblk m c 1 t) (iblk m c 3 t) (iblk m c 4 t) (iblk m c 5 t) p q,
    dot_proj (iblk m c 3 t) (iblk m c 0 t) (Wi m c) (x m c) p q b
      (fun k => (Blocks.blk3 m c t p k).trans (Windows.v20_at m c p k)) (fun k => Blocks.blk0 m c t k q b hb),
    dot_proj (iblk m c 4 t) (iblk m c 1 t) (Wri m c) (r m c) p q b
      (fun k => (Blocks.blk4 m c t p k).trans (Windows.v21_at m c p k)) (fun k => Blocks.blk1 m c t k q b hb),
    (Blocks.blk5 m c t p).trans (Windows.v4_at m c p)]
  rfl

/-- The input gate. -/
theorem igate_entry :
    k0_pay5 (iblk m c 0 t) (iblk m c 1 t) (iblk m c 2 t) (iblk m c 6 t) (iblk m c 7 t) (iblk m c 8 t) (iblk m c 9 t) (ix2 p q)
      = Ideal.logistic (Cert.Cell.pre₃ (Wig m c) (Wrig m c) (Wmig m c) (x m c) (r m c) (mem m c) p b) := by
  rw [Body.igate_at (iblk m c 0 t) (iblk m c 1 t) (iblk m c 2 t) (iblk m c 6 t) (iblk m c 7 t) (iblk m c 8 t) (iblk m c 9 t) p q,
    dot_proj (iblk m c 6 t) (iblk m c 0 t) (Wig m c) (x m c) p q b
      (fun k => (Blocks.blk6 m c t p k).trans (Windows.v22_at m c p k)) (fun k => Blocks.blk0 m c t k q b hb),
    dot_proj (iblk m c 7 t) (iblk m c 1 t) (Wrig m c) (r m c) p q b
      (fun k => (Blocks.blk7 m c t p k).trans (Windows.v23_at m c p k)) (fun k => Blocks.blk1 m c t k q b hb),
    dot_projM (iblk m c 8 t) (iblk m c 2 t) (Wmig m c) (mem m c) p q b
      (fun k => (Blocks.blk8 m c t p k).trans (Windows.v24_at m c p k)) (fun k => Blocks.blk2 m c t k q b hb),
    (Blocks.blk9 m c t p).trans (Windows.v9_at m c p)]
  rfl

/-- The new memory: the body's payload of the blocks is the cell's new memory at `(p, 1024 t + q)`. -/
theorem mem_entry :
    k0_pay6 (iblk m c 2 t) (k0_pay1 (iblk m c 0 t)) (k0_pay2 (iblk m c 1 t)) (k0_pay3 (iblk m c 2 t))
        (k0_pay4 (iblk m c 0 t) (iblk m c 1 t) (iblk m c 3 t) (iblk m c 4 t) (iblk m c 5 t))
        (k0_pay5 (iblk m c 0 t) (iblk m c 1 t) (iblk m c 2 t) (iblk m c 6 t) (iblk m c 7 t) (iblk m c 8 t) (iblk m c 9 t))
        (iblk m c 10 t) (iblk m c 11 t) (iblk m c 12 t) (iblk m c 13 t) (ix2 p q)
      = Cert.Cell.memAt (x m c) (r m c) (mem m c) (Wig m c) (Wrig m c) (Wmig m c) (Wi m c) (Wri m c) (Wrg m c) (Wrrg m c) (Wmrg m c) p b := by
  rw [Body.mem_at (iblk m c 2 t) (k0_pay1 (iblk m c 0 t)) (k0_pay2 (iblk m c 1 t)) (k0_pay3 (iblk m c 2 t))
        (k0_pay4 (iblk m c 0 t) (iblk m c 1 t) (iblk m c 3 t) (iblk m c 4 t) (iblk m c 5 t))
        (k0_pay5 (iblk m c 0 t) (iblk m c 1 t) (iblk m c 2 t) (iblk m c 6 t) (iblk m c 7 t) (iblk m c 8 t) (iblk m c 9 t))
        (iblk m c 10 t) (iblk m c 11 t) (iblk m c 12 t) (iblk m c 13 t) p q,
    cand_entry m c t p q b hb, igate_entry m c t p q b hb,
    dot_proj (iblk m c 10 t) (k0_pay1 (iblk m c 0 t)) (Wrg m c) (x m c) p q b
      (fun k => (Blocks.blk10 m c t p k).trans (Windows.v25_at m c p k)) (fun k => Blocks.blk0 m c t k q b hb),
    dot_proj (iblk m c 11 t) (k0_pay2 (iblk m c 1 t)) (Wrrg m c) (r m c) p q b
      (fun k => (Blocks.blk11 m c t p k).trans (Windows.v26_at m c p k)) (fun k => Blocks.blk1 m c t k q b hb),
    dot_projM (iblk m c 12 t) (k0_pay3 (iblk m c 2 t)) (Wmrg m c) (mem m c) p q b
      (fun k => (Blocks.blk12 m c t p k).trans (Windows.v27_at m c p k)) (fun k => Blocks.blk2 m c t k q b hb),
    (Blocks.blk13 m c t p).trans (Windows.v14_at m c p), Blocks.blk2 m c t p q b hb]
  rfl

/-- The new output: the write gate times the new memory. -/
theorem out_entry :
    k0_pay7 (iblk m c 2 t) (k0_pay1 (iblk m c 0 t)) (k0_pay2 (iblk m c 1 t)) (k0_pay3 (iblk m c 2 t))
        (k0_pay4 (iblk m c 0 t) (iblk m c 1 t) (iblk m c 3 t) (iblk m c 4 t) (iblk m c 5 t))
        (k0_pay5 (iblk m c 0 t) (iblk m c 1 t) (iblk m c 2 t) (iblk m c 6 t) (iblk m c 7 t) (iblk m c 8 t) (iblk m c 9 t))
        (iblk m c 10 t) (iblk m c 11 t) (iblk m c 12 t) (iblk m c 13 t) (iblk m c 14 t) (iblk m c 15 t) (iblk m c 16 t) (iblk m c 17 t) (ix2 p q)
      = Cert.Cell.outAt (x m c) (r m c) (mem m c) (Wig m c) (Wrig m c) (Wmig m c) (Wi m c) (Wri m c) (Wrg m c) (Wrrg m c) (Wmrg m c)
          (Wwg m c) (Wrwg m c) (Wmwg m c) p b := by
  rw [Body.out_at (iblk m c 2 t) (k0_pay1 (iblk m c 0 t)) (k0_pay2 (iblk m c 1 t)) (k0_pay3 (iblk m c 2 t))
        (k0_pay4 (iblk m c 0 t) (iblk m c 1 t) (iblk m c 3 t) (iblk m c 4 t) (iblk m c 5 t))
        (k0_pay5 (iblk m c 0 t) (iblk m c 1 t) (iblk m c 2 t) (iblk m c 6 t) (iblk m c 7 t) (iblk m c 8 t) (iblk m c 9 t))
        (iblk m c 10 t) (iblk m c 11 t) (iblk m c 12 t) (iblk m c 13 t) (iblk m c 14 t) (iblk m c 15 t) (iblk m c 16 t) (iblk m c 17 t) p q,
    mem_entry m c t p q b hb,
    dot_proj (iblk m c 14 t) (k0_pay1 (iblk m c 0 t)) (Wwg m c) (x m c) p q b
      (fun k => (Blocks.blk14 m c t p k).trans (Windows.v28_at m c p k)) (fun k => Blocks.blk0 m c t k q b hb),
    dot_proj (iblk m c 15 t) (k0_pay2 (iblk m c 1 t)) (Wrwg m c) (r m c) p q b
      (fun k => (Blocks.blk15 m c t p k).trans (Windows.v29_at m c p k)) (fun k => Blocks.blk1 m c t k q b hb),
    dot_projM (iblk m c 16 t) (k0_pay3 (iblk m c 2 t)) (Wmwg m c) (mem m c) p q b
      (fun k => (Blocks.blk16 m c t p k).trans (Windows.v30_at m c p k)) (fun k => Blocks.blk2 m c t k q b hb),
    (Blocks.blk17 m c t p).trans (Windows.v19_at m c p)]
  rfl

end entry

/-! ## What a point writes back, and the arrays after the run -/

theorem hz : (![0, 0] : Fin 2 → Nat) = fun _ => 0 := funext fun a => by fin_cases a <;> rfl

theorem lt_N (t : Fin cfg0.N) : t.val < 32 := lt_of_lt_of_eq t.isLt N_0

/-- Point `t` writes back block `t` of the cell's new memory. -/
theorem flushed19_eq (c : Dev nD) (t : Fin cfg0.N) :
    (dats m 0 c).flushed 19 t = ((cfg0.win 19).blk t).view.read (Elt Ideal) (cellMem m c) := by
  rw [Value.flushed19]
  unfold out0_19
  rw [View.canon_unit_zero hz]
  simp only [View.ld_unit_zero (S := S512x1024) hz, View.ld_unit_zero (S := S512x512) hz, View.ld_unit_zero (S := S512x1) hz]
  refine funext fun (j : S512x1024.Idx) => ?_
  obtain ⟨p, q, rfl⟩ : ∃ (p : Fin 512) (q : Fin 1024), j = ix2 p q := ⟨j 0, j 1, eq_ix2 j⟩
  obtain ⟨e0, e1⟩ := Blocks.idx19 t
  have ht := lt_N t
  have hq := q.isLt
  rw [View.read_apply]
  have hemb : ((cfg0.win 19).blk t).view.emb (ix2 p q) = ix2 p (⟨t.val * 1024 + q.val, by omega⟩ : Fin 32768) :=
    funext fun a => Fin.ext (by
      match a with
      | ⟨0, _⟩ => show win0_19.index t (0 : Fin 2) * 512 + 1 * p.val = p.val; omega
      | ⟨1, _⟩ => show win0_19.index t (1 : Fin 2) * 1024 + 1 * q.val = t.val * 1024 + q.val; omega)
  rw [hemb]
  exact mem_entry m c t p q _ rfl

/-- Point `t` writes back block `t` of the cell's new output. -/
theorem flushed18_eq (c : Dev nD) (t : Fin cfg0.N) :
    (dats m 0 c).flushed 18 t = ((cfg0.win 18).blk t).view.read (Elt Ideal) (cellOut m c) := by
  rw [Value.flushed18]
  unfold out0_18
  rw [View.canon_unit_zero hz]
  simp only [View.ld_unit_zero (S := S512x1024) hz, View.ld_unit_zero (S := S512x512) hz, View.ld_unit_zero (S := S512x1) hz]
  refine funext fun (j : S512x1024.Idx) => ?_
  obtain ⟨p, q, rfl⟩ : ∃ (p : Fin 512) (q : Fin 1024), j = ix2 p q := ⟨j 0, j 1, eq_ix2 j⟩
  obtain ⟨e0, e1⟩ := Blocks.idx18 t
  have ht := lt_N t
  have hq := q.isLt
  rw [View.read_apply]
  have hemb : ((cfg0.win 18).blk t).view.emb (ix2 p q) = ix2 p (⟨t.val * 1024 + q.val, by omega⟩ : Fin 32768) :=
    funext fun a => Fin.ext (by
      match a with
      | ⟨0, _⟩ => show win0_18.index t (0 : Fin 2) * 512 + 1 * p.val = p.val; omega
      | ⟨1, _⟩ => show win0_18.index t (1 : Fin 2) * 1024 + 1 * q.val = t.val * 1024 + q.val; omega)
  rw [hemb]
  exact out_entry m c t p q _ rfl

/-- An index lies in point `t`'s block of the new memory iff each coordinate is in the block's range on its axis. -/
theorem mem_blk19 (t : Fin cfg0.N) (i : S512x32768.Idx) :
    i ∈ ((cfg0.win 19).blk t).view.set ↔ ∀ a : Fin 2, win0_19.index t a * S512x1024.size a ≤ (i a).val ∧ (i a).val < win0_19.index t a * S512x1024.size a + S512x1024.size a := by
  show i ∈ ((View.whole main_v31_1).slice (win0_19.rect t)).set ↔ _
  rw [View.set_slice_whole, Rect.mem_set_unit]
  exact Iff.rfl

/-- The same for the new output. -/
theorem mem_blk18 (t : Fin cfg0.N) (i : S512x32768.Idx) :
    i ∈ ((cfg0.win 18).blk t).view.set ↔ ∀ a : Fin 2, win0_18.index t a * S512x1024.size a ≤ (i a).val ∧ (i a).val < win0_18.index t a * S512x1024.size a + S512x1024.size a := by
  show i ∈ ((View.whole main_v31_0).slice (win0_18.rect t)).set ↔ _
  rw [View.set_slice_whole, Rect.mem_set_unit]
  exact Iff.rfl

/-- Column `b` of the new memory lies in the block of point `b / 1024`: the 32 blocks cover the array. -/
theorem cover19 (i : S512x32768.Idx) : ∃ t : Fin cfg0.N, (cfg0.win 19).flush t = true ∧ i ∈ ((cfg0.win 19).blk t).view.set := by
  have h0 : (i 0).val < 512 := (i 0).isLt
  have h1 : (i 1).val < 32768 := (i 1).isLt
  have ht : (i 1).val / 1024 < cfg0.N := by rw [show cfg0.N = 32 from N_0]; omega
  have key : ∀ t : Fin cfg0.N, t.val = (i 1).val / 1024 → i ∈ ((cfg0.win 19).blk t).view.set := by
    intro t htv
    obtain ⟨e0, e1⟩ := Blocks.idx19 t
    rw [mem_blk19]
    intro a
    match a with
    | ⟨0, _⟩ => show win0_19.index t (0 : Fin 2) * 512 ≤ (i 0).val ∧ (i 0).val < win0_19.index t (0 : Fin 2) * 512 + 512; omega
    | ⟨1, _⟩ => show win0_19.index t (1 : Fin 2) * 1024 ≤ (i 1).val ∧ (i 1).val < win0_19.index t (1 : Fin 2) * 1024 + 1024; omega
  exact ⟨⟨(i 1).val / 1024, ht⟩, flush0_19 _, key _ rfl⟩

/-- The same for the new output. -/
theorem cover18 (i : S512x32768.Idx) : ∃ t : Fin cfg0.N, (cfg0.win 18).flush t = true ∧ i ∈ ((cfg0.win 18).blk t).view.set := by
  have h0 : (i 0).val < 512 := (i 0).isLt
  have h1 : (i 1).val < 32768 := (i 1).isLt
  have ht : (i 1).val / 1024 < cfg0.N := by rw [show cfg0.N = 32 from N_0]; omega
  have key : ∀ t : Fin cfg0.N, t.val = (i 1).val / 1024 → i ∈ ((cfg0.win 18).blk t).view.set := by
    intro t htv
    obtain ⟨e0, e1⟩ := Blocks.idx18 t
    rw [mem_blk18]
    intro a
    match a with
    | ⟨0, _⟩ => show win0_18.index t (0 : Fin 2) * 512 ≤ (i 0).val ∧ (i 0).val < win0_18.index t (0 : Fin 2) * 512 + 512; omega
    | ⟨1, _⟩ => show win0_18.index t (1 : Fin 2) * 1024 ≤ (i 1).val ∧ (i 1).val < win0_18.index t (1 : Fin 2) * 1024 + 1024; omega
  exact ⟨⟨(i 1).val / 1024, ht⟩, flush0_18 _, key _ rfl⟩

/-- After the run the second result array is the cell's new memory. -/
theorem final19 (c : Dev nD) : (dats m 0 c).arrAt 19 cfg0.N = cellMem m c :=
  (dats m 0 c).arrAt_eq_of_cover 19 (cellMem m c) (fun t _ => flushed19_eq m c t) cover19

/-- After the run the first result array is the cell's new output. -/
theorem final18 (c : Dev nD) : (dats m 0 c).arrAt 18 cfg0.N = cellOut m c :=
  (dats m 0 c).arrAt_eq_of_cover 18 (cellOut m c) (fun t _ => flushed18_eq m c t) cover18

/-- The kernel's run, read: the two results at the cell's output and memory of the arguments, the arguments unchanged. -/
theorem run : θ_run defs (onTc (τ := τ) (main (F := Ideal))) ⟨m, fun _ => 0, ρ⟩ fun s => ∀ c : Dev nD,
      s.2.mem ((c : Thread nD τ).loc main_v31_0) = cellOut m c
      ∧ s.2.mem ((c : Thread nD τ).loc main_v31_1) = cellMem m c
      ∧ s.2.mem ((c : Thread nD τ).loc main_arg0) = m ((c : Thread nD τ).loc main_arg0)
      ∧ s.2.mem ((c : Thread nD τ).loc main_arg1) = m ((c : Thread nD τ).loc main_arg1)
      ∧ s.2.mem ((c : Thread nD τ).loc main_arg2) = m ((c : Thread nD τ).loc main_arg2)
      ∧ s.2.mem ((c : Thread nD τ).loc main_arg3) = m ((c : Thread nD τ).loc main_arg3)
      ∧ s.2.mem ((c : Thread nD τ).loc main_arg4) = m ((c : Thread nD τ).loc main_arg4)
      ∧ s.2.mem ((c : Thread nD τ).loc main_arg5) = m ((c : Thread nD τ).loc main_arg5)
      ∧ s.2.mem ((c : Thread nD τ).loc main_arg6) = m ((c : Thread nD τ).loc main_arg6)
      ∧ s.2.mem ((c : Thread nD τ).loc main_arg7) = m ((c : Thread nD τ).loc main_arg7)
      ∧ s.2.mem ((c : Thread nD τ).loc main_arg8) = m ((c : Thread nD τ).loc main_arg8)
      ∧ s.2.mem ((c : Thread nD τ).loc main_arg9) = m ((c : Thread nD τ).loc main_arg9)
      ∧ s.2.mem ((c : Thread nD τ).loc main_arg10) = m ((c : Thread nD τ).loc main_arg10)
      ∧ s.2.mem ((c : Thread nD τ).loc main_arg11) = m ((c : Thread nD τ).loc main_arg11)
      ∧ s.2.mem ((c : Thread nD τ).loc main_arg12) = m ((c : Thread nD τ).loc main_arg12)
      ∧ s.2.mem ((c : Thread nD τ).loc main_arg13) = m ((c : Thread nD τ).loc main_arg13) :=
  (θ_run defs _ _).mono (fun s h c => ⟨(h c).1.trans (final18 m c), (h c).2.1.trans (final19 m c), (h c).2.2⟩)
    (Cert.KernelIdeal.Value.run_blocks m ρ)

end Cert.KernelIdeal.CellValue

end
-- ==== Proof.RefCell.lean ====
/-
  The reference program computes the gated memory cell.

  The program appends a row of ones to the input and to the previous output, so that the product of a biased weight
  matrix (513 columns) with the extended array is, entry by entry, the 512-term projection plus the bias: the last
  term of the sum is the bias entry times one. It spells the logistic function as 1 / (1 + exp (-z)), which is the
  logistic function of the extended reals by definition. And it adds the two or three products of a pre-activation in
  its own order, which commutativity and associativity of addition bring to the order of the specification. Each of
  these three facts is proved once, entry by entry, and the two results are then read off operation by operation.
  Nothing here needs an entry to be finite.
-/
import proofs.«172792_j54262616818002_1_alg».proof.Proof.RefRead
import proofs.«172792_j54262616818002_1_alg».proof.Proof.Cell
import Idealize.ShloMosaic.Lib.IdealHost
import Idealize.ShloMosaic.Lib.Pipeline.Value

noncomputable section

open scoped BigOperators

namespace Cert.ReferenceIdeal.RefCell

open Cert.ReferenceIdeal Cert.ReferenceIdeal.ReadP Idealize.ShloMosaic Idealize.ShloMosaic.TcCoe Idealize.ShloMosaic.ValueIdx

/-- An activation array as the program types it: 512 features by 32768 batch entries. -/
abbrev PA : Type := (⟨S512x32768, .f32⟩ : BufTy).Contents (Elt Ideal)
/-- A weight matrix with its bias column, as the program types it. -/
abbrev PB : Type := (⟨S512x513, .f32⟩ : BufTy).Contents (Elt Ideal)
/-- The memory's weight matrix, as the program types it. -/
abbrev PM : Type := (⟨S512x512, .f32⟩ : BufTy).Contents (Elt Ideal)

/-! ## The constant one -/

/-- Every entry of the appended row is one. -/
theorem ones_row (j : S1x32768.Idx) : val_main_v0 (F := Ideal) j = (1 : EReal) := by
  rw [val_main_v0_apply, val_main_cst_apply]
  exact Ideal.ofBits_one_f32

/-- The six arrays of ones in the three spelled-out logistic functions. -/
theorem one14 (i : S512x32768.Idx) : val_main_v14 (F := Ideal) i = (1 : EReal) := by
  rw [val_main_v14_apply, val_main_cst_0_apply]
  exact Ideal.ofBits_one_f32
theorem one16 (i : S512x32768.Idx) : val_main_v16 (F := Ideal) i = (1 : EReal) := by
  rw [val_main_v16_apply, val_main_cst_1_apply]
  exact Ideal.ofBits_one_f32
theorem one25 (i : S512x32768.Idx) : val_main_v25 (F := Ideal) i = (1 : EReal) := by
  rw [val_main_v25_apply, val_main_cst_2_apply]
  exact Ideal.ofBits_one_f32
theorem one27 (i : S512x32768.Idx) : val_main_v27 (F := Ideal) i = (1 : EReal) := by
  rw [val_main_v27_apply, val_main_cst_3_apply]
  exact Ideal.ofBits_one_f32
theorem one36 (i : S512x32768.Idx) : val_main_v36 (F := Ideal) i = (1 : EReal) := by
  rw [val_main_v36_apply, val_main_cst_4_apply]
  exact Ideal.ofBits_one_f32
theorem one38 (i : S512x32768.Idx) : val_main_v38 (F := Ideal) i = (1 : EReal) := by
  rw [val_main_v38_apply, val_main_cst_5_apply]
  exact Ideal.ofBits_one_f32

/-! ## The array extended by a row of ones -/

/-- Row k < 512 of the extended array is row k of the array itself. -/
theorem ext_row (a : PA) (i : S512x32768.Idx) (k : Fin 512) :
    val_main_v1 (F := Ideal) a (ridx_main_v3 i k.castSucc) = a (ix2 (n0 := 512) (n1 := 32768) k (i 1)) := by
  unfold val_main_v1
  exact concatenate_pair_apply_left _ a _ _ (ridx_main_v3 i k.castSucc) rfl
    (ix2 (n0 := 512) (n1 := 32768) k (i 1)) (fun c => by
      match c with
      | ⟨0, _⟩ => rfl
      | ⟨1, _⟩ => rfl)

/-- Row 512 of the extended array is the appended one. -/
theorem ext_last (a : PA) (i : S512x32768.Idx) :
    val_main_v1 (F := Ideal) a (ridx_main_v3 i (Fin.last 512)) = (1 : EReal) := by
  unfold val_main_v1
  refine (concatenate_pair_apply_right _ a (val_main_v0 (F := Ideal)) _ (ridx_main_v3 i (Fin.last 512)) rfl rfl
    (ix2 (n0 := 1) (n1 := 32768) 0 (i 1)) (fun c hc => ?_) rfl).trans (ones_row _)
  match c, hc with
  | ⟨0, _⟩, hc => exact (hc (Fin.ext rfl)).elim
  | ⟨1, _⟩, _ => rfl

/-! ## The products -/

/-- The k-th term of a 513-term dot reads the weight at row i 0, column k. -/
theorem lidx_eq (i : S512x32768.Idx) (k : Fin 513) :
    lidx_main_v3 i k = ix2 (n0 := 512) (n1 := 513) (i 0) k :=
  funext fun c => Fin.ext (by
    match c with
    | ⟨0, _⟩ => rfl
    | ⟨1, _⟩ => rfl)

/-- A biased weight matrix times the extended array: the projection plus the bias. -/
theorem dotB (W : PB) (a : PA) (i : S512x32768.Idx) :
    val_main_v3 (F := Ideal) a W i = Cert.Cell.proj W a (i 0) (i 1) + Cert.Cell.bias W (i 0) := by
  rw [val_main_v3_apply]
  refine Eq.trans (Finset.sum_congr rfl fun k _ => ?_)
    (Cert.Cell.sum_ones_row W a (fun k => val_main_v1 (F := Ideal) a (ridx_main_v3 i k)) (i 0) (i 1)
      (ext_row a i) (ext_last a i))
  rw [lidx_eq i k]

/-- The memory's weight matrix times the memory: the 512-term projection. -/
theorem dotM (W : PM) (m : PA) (i : S512x32768.Idx) :
    val_main_v8 (F := Ideal) m W i = Cert.Cell.projM W m (i 0) (i 1) := by
  rw [val_main_v8_apply]
  unfold Cert.Cell.projM
  refine Finset.sum_congr rfl fun k _ => ?_
  have el : lidx_main_v8 i k = ix2 (n0 := 512) (n1 := 512) (i 0) k := funext fun c => Fin.ext (by
    match c with
    | ⟨0, _⟩ => rfl
    | ⟨1, _⟩ => rfl)
  have er : ridx_main_v8 i k = ix2 (n0 := 512) (n1 := 32768) k (i 1) := funext fun c => Fin.ext (by
    match c with
    | ⟨0, _⟩ => rfl
    | ⟨1, _⟩ => rfl)
  rw [el, er]

/-! The eight biased products are one term at different weights and arrays, and so are the three memory products. -/

theorem at4 (x1 : PA) (x7 : PB) (i : S512x32768.Idx) :
    val_main_v4 (F := Ideal) x1 x7 i = Cert.Cell.proj x7 x1 (i 0) (i 1) + Cert.Cell.bias x7 (i 0) := dotB x7 x1 i
theorem at7 (x0 : PA) (x3 : PB) (i : S512x32768.Idx) :
    val_main_v7 (F := Ideal) x0 x3 i = Cert.Cell.proj x3 x0 (i 0) (i 1) + Cert.Cell.bias x3 (i 0) := dotB x3 x0 i
theorem at10 (x1 : PA) (x4 : PB) (i : S512x32768.Idx) :
    val_main_v10 (F := Ideal) x1 x4 i = Cert.Cell.proj x4 x1 (i 0) (i 1) + Cert.Cell.bias x4 (i 0) := dotB x4 x1 i
theorem at18 (x0 : PA) (x8 : PB) (i : S512x32768.Idx) :
    val_main_v18 (F := Ideal) x0 x8 i = Cert.Cell.proj x8 x0 (i 0) (i 1) + Cert.Cell.bias x8 (i 0) := dotB x8 x0 i
theorem at19 (x1 : PA) (x9 : PB) (i : S512x32768.Idx) :
    val_main_v19 (F := Ideal) x1 x9 i = Cert.Cell.proj x9 x1 (i 0) (i 1) + Cert.Cell.bias x9 (i 0) := dotB x9 x1 i
theorem at29 (x0 : PA) (x11 : PB) (i : S512x32768.Idx) :
    val_main_v29 (F := Ideal) x0 x11 i = Cert.Cell.proj x11 x0 (i 0) (i 1) + Cert.Cell.bias x11 (i 0) := dotB x11 x0 i
theorem at32 (x1 : PA) (x12 : PB) (i : S512x32768.Idx) :
    val_main_v32 (F := Ideal) x1 x12 i = Cert.Cell.proj x12 x1 (i 0) (i 1) + Cert.Cell.bias x12 (i 0) := dotB x12 x1 i
theorem at21 (x2 : PA) (x10 : PM) (i : S512x32768.Idx) :
    val_main_v21 (F := Ideal) x2 x10 i = Cert.Cell.projM x10 x2 (i 0) (i 1) := dotM x10 x2 i
theorem at30 (x2 : PA) (x13 : PM) (i : S512x32768.Idx) :
    val_main_v30 (F := Ideal) x2 x13 i = Cert.Cell.projM x13 x2 (i 0) (i 1) := dotM x13 x2 i

/-! ## The pre-activations, regrouped -/

/-- The candidate: (W x + bias) + (W' r + bias'). -/
theorem pre_cand (x0 x1 : PA) (x6 x7 : PB) (i : S512x32768.Idx) :
    val_main_v5 (F := Ideal) x0 x1 x6 x7 i = Cert.Cell.pre₂ x6 x7 x0 x1 (i 0) (i 1) := by
  rw [val_main_v5_apply, dotB x6 x0 i, at4 x1 x7 i]
  exact Cert.Cell.regroup₂ (Cert.Cell.proj x6 x0 (i 0) (i 1)) (Cert.Cell.bias x6 (i 0))
    (Cert.Cell.proj x7 x1 (i 0) (i 1)) (Cert.Cell.bias x7 (i 0))

/-- The input gate: ((W x + bias) + M m) + (W' r + bias'). -/
theorem pre_in (x0 x1 x2 : PA) (x3 x4 : PB) (x5 : PM) (i : S512x32768.Idx) :
    val_main_v11 (F := Ideal) x0 x1 x2 x3 x4 x5 i = Cert.Cell.pre₃ x3 x4 x5 x0 x1 x2 (i 0) (i 1) := by
  rw [val_main_v11_apply, val_main_v9_apply, at7 x0 x3 i, dotM x5 x2 i, at10 x1 x4 i]
  exact Cert.Cell.regroup₃ (Cert.Cell.proj x3 x0 (i 0) (i 1)) (Cert.Cell.bias x3 (i 0))
    (Cert.Cell.projM x5 x2 (i 0) (i 1)) (Cert.Cell.proj x4 x1 (i 0) (i 1)) (Cert.Cell.bias x4 (i 0))

/-- The read gate: ((W x + bias) + (W' r + bias')) + M m. -/
theorem pre_read (x0 x1 x2 : PA) (x8 x9 : PB) (x10 : PM) (i : S512x32768.Idx) :
    val_main_v22 (F := Ideal) x0 x1 x2 x8 x9 x10 i = Cert.Cell.pre₃ x8 x9 x10 x0 x1 x2 (i 0) (i 1) := by
  rw [val_main_v22_apply, val_main_v20_apply, at18 x0 x8 i, at19 x1 x9 i, at21 x2 x10 i]
  exact Cert.Cell.regroup₃' (Cert.Cell.proj x8 x0 (i 0) (i 1)) (Cert.Cell.bias x8 (i 0))
    (Cert.Cell.proj x9 x1 (i 0) (i 1)) (Cert.Cell.bias x9 (i 0)) (Cert.Cell.projM x10 x2 (i 0) (i 1))

/-- The write gate: ((W x + bias) + M m) + (W' r + bias'). -/
theorem pre_write (x0 x1 x2 : PA) (x11 x12 : PB) (x13 : PM) (i : S512x32768.Idx) :
    val_main_v33 (F := Ideal) x0 x1 x2 x11 x12 x13 i = Cert.Cell.pre₃ x11 x12 x13 x0 x1 x2 (i 0) (i 1) := by
  rw [val_main_v33_apply, val_main_v31_apply, at29 x0 x11 i, at30 x2 x13 i, at32 x1 x12 i]
  exact Cert.Cell.regroup₃ (Cert.Cell.proj x11 x0 (i 0) (i 1)) (Cert.Cell.bias x11 (i 0))
    (Cert.Cell.projM x13 x2 (i 0) (i 1)) (Cert.Cell.proj x12 x1 (i 0) (i 1)) (Cert.Cell.bias x12 (i 0))

/-! ## The activations -/

/-- 1 / (1 + exp (-z)) is the logistic function of the extended reals, by definition. -/
theorem logistic_spelled (z : Ideal .f32) :
    FloatOps.hostDivf (1 : Ideal .f32) (FloatOps.addf 1 (FloatOps.hostUnary .exp (FloatOps.hostNegf z)))
      = Ideal.logistic z := rfl

/-- The candidate's activation. -/
theorem cand_at (x0 x1 : PA) (x6 x7 : PB) (i : S512x32768.Idx) :
    val_main_v6 (F := Ideal) x0 x1 x6 x7 i = Ideal.tanh (Cert.Cell.pre₂ x6 x7 x0 x1 (i 0) (i 1)) := by
  rw [val_main_v6_apply, pre_cand]
  rfl

/-- The input gate. -/
theorem gate_in (x0 x1 x2 : PA) (x3 x4 : PB) (x5 : PM) (i : S512x32768.Idx) :
    val_main_v17 (F := Ideal) x0 x1 x2 x3 x4 x5 i
      = Ideal.logistic (Cert.Cell.pre₃ x3 x4 x5 x0 x1 x2 (i 0) (i 1)) := by
  rw [val_main_v17_apply, val_main_v15_apply, val_main_v13_apply, val_main_v12_apply, one16, one14, pre_in]
  exact logistic_spelled _

/-- The read gate. -/
theorem gate_read (x0 x1 x2 : PA) (x8 x9 : PB) (x10 : PM) (i : S512x32768.Idx) :
    val_main_v28 (F := Ideal) x0 x1 x2 x8 x9 x10 i
      = Ideal.logistic (Cert.Cell.pre₃ x8 x9 x10 x0 x1 x2 (i 0) (i 1)) := by
  rw [val_main_v28_apply, val_main_v26_apply, val_main_v24_apply, val_main_v23_apply, one27, one25, pre_read]
  exact logistic_spelled _

/-- The write gate. -/
theorem gate_write (x0 x1 x2 : PA) (x11 x12 : PB) (x13 : PM) (i : S512x32768.Idx) :
    val_main_v39 (F := Ideal) x0 x1 x2 x11 x12 x13 i
      = Ideal.logistic (Cert.Cell.pre₃ x11 x12 x13 x0 x1 x2 (i 0) (i 1)) := by
  rw [val_main_v39_apply, val_main_v37_apply, val_main_v35_apply, val_main_v34_apply, one38, one36, pre_write]
  exact logistic_spelled _

/-! ## The two results -/

/-- The program's new memory is the cell's: the gated candidate plus the kept share of the old memory. -/
theorem mem_eq (x0 x1 x2 : (⟨S512x32768, .f32⟩ : BufTy).Contents (Elt Ideal)) (x3 x4 : (⟨S512x513, .f32⟩ : BufTy).Contents (Elt Ideal)) (x5 : (⟨S512x512, .f32⟩ : BufTy).Contents (Elt Ideal)) (x6 x7 x8 x9 : (⟨S512x513, .f32⟩ : BufTy).Contents (Elt Ideal)) (x10 : (⟨S512x512, .f32⟩ : BufTy).Contents (Elt Ideal)) :
    val_main_v42 (F := Ideal) x0 x1 x2 x3 x4 x5 x6 x7 x8 x9 x10 = Cert.Cell.newMem x0 x1 x2 x3 x4 x5 x6 x7 x8 x9 x10 := by
  funext i
  obtain ⟨h, b, rfl⟩ : ∃ (h : Fin 512) (b : Fin 32768), i = ix2 h b := ⟨i 0, i 1, eq_ix2 i⟩
  rw [val_main_v42_apply, val_main_v40_apply, val_main_v41_apply, cand_at, gate_in, gate_read]
  rfl

/-- The program's new output is the cell's: the write gate times the new memory. -/
theorem out_eq (x0 x1 x2 : (⟨S512x32768, .f32⟩ : BufTy).Contents (Elt Ideal)) (x3 x4 : (⟨S512x513, .f32⟩ : BufTy).Contents (Elt Ideal)) (x5 : (⟨S512x512, .f32⟩ : BufTy).Contents (Elt Ideal)) (x6 x7 x8 x9 : (⟨S512x513, .f32⟩ : BufTy).Contents (Elt Ideal)) (x10 : (⟨S512x512, .f32⟩ : BufTy).Contents (Elt Ideal)) (x11 x12 : (⟨S512x513, .f32⟩ : BufTy).Contents (Elt Ideal)) (x13 : (⟨S512x512, .f32⟩ : BufTy).Contents (Elt Ideal)) :
    val_main_v43 (F := Ideal) x0 x1 x2 x3 x4 x5 x6 x7 x8 x9 x10 x11 x12 x13 = Cert.Cell.newOut x0 x1 x2 x3 x4 x5 x6 x7 x8 x9 x10 x11 x12 x13 := by
  funext i
  obtain ⟨h, b, rfl⟩ : ∃ (h : Fin 512) (b : Fin 32768), i = ix2 h b := ⟨i 0, i 1, eq_ix2 i⟩
  rw [val_main_v43_apply, gate_write, mem_eq]
  rfl

end Cert.ReferenceIdeal.RefCell

end
-- ==== Proof.lean ====
/-
  The certificate of the gated memory cell: a kernel that works through the batch in 32 blocks of 1024 columns against
  a reference written with whole-array matrix products.

  Both programs compute, from the input `x`, the previous output `r` and the previous memory `m` (512 × 32768 each) and
  eleven weight matrices,

    mem' = tanh z_inp * σ z_ig + σ z_rg * m,        out' = σ z_wg * mem',

  each pre-activation `z` a sum of two or three matrix products and two biases (Proof/Cell.lean). They differ in how the
  biases enter. The kernel cuts the bias column off every 513-column weight matrix before the launch, adds the two bias
  columns of a gate once, and adds that column to the sum of the products; the reference appends a row of ones to `x` and
  to `r` and multiplies by the whole 513-column matrices, so that each bias arrives as the last term `w * 1` of its own
  product, and it adds a gate's three products in another order than the kernel. On the extended reals the two are one
  function: `w * 1 = w`, and a sum of five terms may be regrouped freely — commutativity and associativity of `+` hold at
  the infinities too, so the precondition (every input finite) is never opened. The narrowing of the matrix products'
  operands to 16 bits is the identity on the extended reals; the kernel's logistic function and the reference's
  `1 / (1 + exp (-z))` are the same function there, as are the two hyperbolic tangents.

  Proof/KernelCell.lean reads the kernel's two result arrays after its run as the cell's arrays (over Proof/Body.lean,
  the body's arithmetic at an entry; Proof/Windows.lean, what the staged weight and bias arrays hold; Proof/Blocks.lean,
  which entries a block holds), Proof/RefCell.lean does the same for the reference's two results, and the claims below
  set the two runs side by side. The three frames are the programs' runs with the results forgotten; the idealization
  rewrote nothing, so that claim is trivial.
-/
import proofs.«172792_j54262616818002_1_alg».proof.Defs
import proofs.«172792_j54262616818002_1_alg».proof.Proof.Gen.Kernel
import proofs.«172792_j54262616818002_1_alg».proof.Proof.Gen.Kernel.Frame
import proofs.«172792_j54262616818002_1_alg».proof.Proof.Gen.KernelIdeal
import proofs.«172792_j54262616818002_1_alg».proof.Proof.Gen.KernelIdeal.Frame
import proofs.«172792_j54262616818002_1_alg».proof.Proof.Gen.KernelIdeal.Value
import proofs.«172792_j54262616818002_1_alg».proof.Proof.Gen.ReferenceIdeal
import proofs.«172792_j54262616818002_1_alg».proof.Proof.Gen.Pre_finite_inputs
import proofs.«172792_j54262616818002_1_alg».proof.Proof.KernelCell
import proofs.«172792_j54262616818002_1_alg».proof.Proof.RefCell
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the two results forgotten. -/
theorem frame_reference : Cert.frame_ReferenceIdeal := fun m ρ _ =>
  (θ_run Cert.ReferenceIdeal.defs _ _).mono (fun _ h c => (h c).2.2) (Cert.ReferenceIdeal.RunP.run (F := Ideal) m ρ)

/-- The kernel's run ends with the cell's output and memory of its arguments; the reference's run ends with its own
    composed terms, which are the same two arrays of the same arguments. -/
theorem algebraic : Cert.algebraic_KernelIdeal_ReferenceIdeal := by
  intro m ρ m' ρ' _ hagree
  refine ⟨fun c => Cert.KernelIdeal.CellValue.cellOut m c, fun c => Cert.KernelIdeal.CellValue.cellMem m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · obtain ⟨h0, h1, h2, h3, h4, h5, h6, h7, h8, h9, h10, h11, h12, h13⟩ := hagree c
    rw [Cert.ReferenceIdeal.ReadP.val_main_v43_eq, Cert.ReferenceIdeal.RefCell.out_eq, h0, h1, h2, h3, h4, h5, h6, h7, h8, h9, h10, h11, h12, h13]
  · obtain ⟨h0, h1, h2, h3, h4, h5, h6, h7, h8, h9, h10, -, -, -⟩ := hagree c
    rw [Cert.ReferenceIdeal.ReadP.val_main_v42_eq, Cert.ReferenceIdeal.RefCell.mem_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
